-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x32 .f32) (main_arg3 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S10000x16 : Shape := ⟨2, ![10000, 16]⟩
abbrev S400x10000 : Shape := ⟨2, ![400, 10000]⟩
abbrev S400x32 : Shape := ⟨2, ![400, 32]⟩
abbrev S400x16 : Shape := ⟨2, ![400, 16]⟩
abbrev S200x10000 : Shape := ⟨2, ![200, 10000]⟩
abbrev S400 : Shape := ⟨1, ![400]⟩
abbrev S400x1 : Shape := ⟨2, ![400, 1]⟩

abbrev nBuf : Space → Nat
  | .hbm => 8
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S10000x32, .bf16⟩
  | .hbm, ⟨5, _⟩ => ⟨S10000x32, .f32⟩
  | .hbm, ⟨6, _⟩ => ⟨S10000x16, .f32⟩
  | .hbm, ⟨7, _⟩ => ⟨S10000x10000, .f32⟩
  | .local _ .vmem, ⟨0, _⟩ => ⟨S10000x128, .f32⟩
  | .local _ .vmem, ⟨1, _⟩ => ⟨S128x32, .f32⟩
  | .local _ .vmem, ⟨2, _⟩ => ⟨S10000x32, .bf16⟩
  | .local _ .vmem, ⟨3, _⟩ => ⟨S400x10000, .f32⟩
  | .local _ .vmem, ⟨4, _⟩ => ⟨S400x10000, .f32⟩
  | .local _ .vmem, ⟨5, _⟩ => ⟨S10000x32, .bf16⟩
  | .local _ .vmem, ⟨6, _⟩ => ⟨S32x16, .f32⟩
  | .local _ .vmem, ⟨7, _⟩ => ⟨S400x32, .f32⟩
  | .local _ .vmem, ⟨8, _⟩ => ⟨S400x32, .f32⟩
  | .local _ .vmem, ⟨9, _⟩ => ⟨S400x16, .f32⟩
  | .local _ .vmem, ⟨10, _⟩ => ⟨S400x16, .f32⟩
  | .local _ .vmem, ⟨11, _⟩ => ⟨S200x10000, .f32⟩
  | .local _ .vmem, ⟨12, _⟩ => ⟨S200x10000, .f32⟩
  | .local _ .vmem, ⟨13, _⟩ => ⟨S10000x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 25], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c400_i32 : BitVec 32 := 400#32
  let v19 : BitVec 32 := Scalar.muli arg1 c400_i32
  let v20 : Index := Scalar.indexCast v19
  let c0_15 : Index := 0#32
  ![v20.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.select v0 arg1 c24_i32
  let c0_i32_0 : BitVec 32 := 0#32
  let c0_i32_1 : BitVec 32 := 0#32
  ![v1.toNat, c0_i32_0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_5 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  ![v1.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S200x10000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  inb_S400x10000_S200x10000_0_0 : ∀ a, (![0, 0] : Fin 2 → Nat) a + S200x10000.size a ≤ S400x10000.size a
  h_S200x10000 : 0 < S200x10000.numel
  inb_S200x10000_S200x10000_0_0 : ∀ a, (![0, 0] : Fin 2 → Nat) a + S200x10000.size a ≤ S200x10000.size a
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S400x32_S400x32_0_0 : ∀ a, (![0, 0] : Fin 2 → Nat) a + S400x32.size a ≤ S400x32.size a
  h_S400x32 : 0 < S400x32.numel
  inb_S32x16_S32x16_0_0 : ∀ a, (![0, 0] : Fin 2 → Nat) a + S32x16.size a ≤ S32x16.size a
  h_S32x16 : 0 < S32x16.numel
  h_S400x16 : 0 < S400x16.numel
  shapeCasts_S400x16_S400x16 : S400x16.ShapeCasts S400x16
  inb_S400x10000_S200x10000_200_0 : ∀ a, (![200, 0] : Fin 2 → Nat) a + S200x10000.size a ≤ S400x10000.size a
  inb_S10000x16_S10000x16_0_0 : ∀ a, (![0, 0] : Fin 2 → Nat) a + S10000x16.size a ≤ S10000x16.size a
  h_S10000x16 : 0 < S10000x16.numel
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  k1_off1_inb : ∀ i : grid1.Coords, ∀ (k1_h1 : k1_cond1 i = 1#1), ∀ a, (k1_off1 i) a + S400x16.size a ≤ S10000x16.size a
  k1_off1_packedbf16 : ∀ i : grid1.Coords, ∀ (k1_h1 : k1_cond1 i = 1#1), (Rect.unit (s := S10000x16) (k1_off1 i) S400x16.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .f32 = 32 ∨ (Rect.block (s := S10000x10000) S200x10000.size (cc1_transform_5 i) (hinb1_5 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S400x32.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S400x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_2) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun i => !(k1_cond1 i == 1#1) | 4 => fun i => !(k1_cond2 i == 1#1) | 5 => fun i => !(k1_cond1 i == 1#1) && !(k1_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩
abbrev S10000 : Shape := ⟨1, ![10000]⟩
abbrev S10000x1 : Shape := ⟨2, ![10000, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S10000x32, .f32⟩
  | .hbm, ⟨5, _⟩ => ⟨S10000x32, .f32⟩
  | .hbm, ⟨6, _⟩ => ⟨S_, .f32⟩
  | .hbm, ⟨7, _⟩ => ⟨S10000x32, .f32⟩
  | .hbm, ⟨8, _⟩ => ⟨S10000x32, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S_, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000x1, .f32⟩
  | .hbm, ⟨20, _⟩ => ⟨S10000x16, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000, .f32⟩
  | .hbm, ⟨25, _⟩ => ⟨S10000x1, .f32⟩
  | .hbm, ⟨26, _⟩ => ⟨S10000x1, .f32⟩
  | .hbm, ⟨27, _⟩ => ⟨S10000x16, .f32⟩
  | .hbm, ⟨28, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.R0.lean ====
/-
  Region 0 of the kernel's program: the gridless call that forms S1 = x · W1 (rounded to bf16, which at the
  ideal instance is the identity). One grid point; both operands are staged whole, the result is stored whole
  and written back. Everything is stated at a parameter `V`, the TensorCore's buffer contents when the region
  is entered, and generic in the float family.
-/
import proofs.«107694_g18872086298805_cont_8to1_696_27_alg».proof.Proof.Gen.Kernel.Launch
import proofs.«107694_g18872086298805_cont_8to1_696_27_alg».proof.Proof.Gen.Kernel.Skeleton
import proofs.«107694_g18872086298805_cont_8to1_696_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the (only) point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev rX : Rect S10000x128 := Rect.unit (s := S10000x128) ![0, 0] S10000x128.size inb_S10000x128_S10000x128_0_0
abbrev rW1 : Rect S128x32 := Rect.unit (s := S128x32) ![0, 0] S128x32.size inb_S128x32_S128x32_0_0
abbrev rS1 : Rect S10000x32 := Rect.unit (s := S10000x32) ![0, 0] S10000x32.size inb_S10000x32_S10000x32_0_0

/-- What the body leaves in the result's staging buffer: the product's payload of the two loaded operands, stored whole. -/
def s1Of (x0 : Vec F S10000x128 .f32) (x1 : Vec F S128x32 .f32) : Vec F S10000x32 .bf16 :=
  View.canon [⟨rS1, k0_pay1 (View.ld x0 rX) (View.ld x1 rW1)⟩]

/-- The one store covers the buffer. -/
theorem coverS1 (p0 : Vec F S10000x32 .bf16) (y : S10000x32.Idx) :
    ∃ pc ∈ ([⟨rS1, p0⟩] : List (View.Piece (Elt F) S10000x32 .bf16)), y ∈ pc.1.set :=
  View.cover_of_tiled [⟨rS1, p0⟩] S10000x32.size (by rfl) y

/-! ## The body's triple -/

set_option maxHeartbeats 1000000 in
/-- The body on whole staging memrefs, the operands' at contents `x0`, `x1` and the result's at anything, runs to the
    continuation with the operands' as they were and the result's at `s1Of x0 x1`. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .bf16) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (s1Of x0 x1)) -∗ K ⟨⟩))
      ⊢ wp frame (wpE (defs₀ (F := F)) Variants.none c none) E (cc0__pre_kernel arg0 harg0 arg1 harg1 arg2 harg2) K := by
  simp only [cc0__pre_kernel_eq_skeleton]; unfold cc0__pre_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverS1 _)

/-! ## The proof data -/

/-- Region 0's proof data on core `c`: the arrays as the region finds them; after the body each operand's buffer at its
    block and the result's at `s1Of` of the two blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => s1Of (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = s1Of (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Data.lean ====
/-
  Region 1 of the kernel's program: the fused two-phase call over the grid (2, 25). In phase 0 (points 0..24) point t
  stores rows [400t, 400t+400) of h1 = relu(adj · S1), keeps the same rows of h1 · W2 in a scratch buffer that lives
  across the points, and copies the top half of its adj block; in phase 1 (points 25..49) point t stores rows
  [400(t-25), …) of log_softmax(relu(adj · scratch)) and copies the bottom half of its adj block.
  This module holds the definitions: the blocks, what the body leaves in each buffer, the scratch's contents between
  points, and the proof data. Everything is at a parameter `V` (the buffers' contents at the region's entry) and generic
  in the float family.
-/
import proofs.«107694_g18872086298805_cont_8to1_696_27_alg».proof.Proof.Gen.Kernel.Launch
import proofs.«107694_g18872086298805_cont_8to1_696_27_alg».proof.Proof.Gen.Kernel.Skeleton
import proofs.«107694_g18872086298805_cont_8to1_696_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev qA : Rect S400x10000 := Rect.unit (s := S400x10000) ![0, 0] S400x10000.size inb_S400x10000_S400x10000_0_0
abbrev qAtop : Rect S400x10000 := Rect.unit (s := S400x10000) ![0, 0] S200x10000.size inb_S400x10000_S200x10000_0_0
abbrev qAbot : Rect S400x10000 := Rect.unit (s := S400x10000) ![200, 0] S200x10000.size inb_S400x10000_S200x10000_200_0
abbrev qS1 : Rect S10000x32 := Rect.unit (s := S10000x32) ![0, 0] S10000x32.size inb_S10000x32_S10000x32_0_0
abbrev qW2 : Rect S32x16 := Rect.unit (s := S32x16) ![0, 0] S32x16.size inb_S32x16_S32x16_0_0
abbrev qH1 : Rect S400x32 := Rect.unit (s := S400x32) ![0, 0] S400x32.size inb_S400x32_S400x32_0_0
abbrev qLg : Rect S400x16 := Rect.unit (s := S400x16) ![0, 0] S400x16.size inb_S400x16_S400x16_0_0
abbrev qCp : Rect S200x10000 := Rect.unit (s := S200x10000) ![0, 0] S200x10000.size inb_S200x10000_S200x10000_0_0
abbrev qScr : Rect S10000x16 := Rect.unit (s := S10000x16) ![0, 0] S10000x16.size inb_S10000x16_S10000x16_0_0

/-! ## What the body leaves, as functions of what it loads -/

/-- The h1 rows of a point: relu of the adj block times S1, stored whole. -/
def h1Of (a : Vec F S400x10000 .f32) (s1 : Vec F S10000x32 .bf16) : Vec F S400x32 .f32 :=
  View.canon [⟨qH1, k1_pay1 (View.ld a qA) (View.ld s1 qS1)⟩]
/-- The rows of h1 · W2 a phase-0 point writes into the scratch. -/
def hw2Of (a : Vec F S400x10000 .f32) (s1 : Vec F S10000x32 .bf16) (w2 : Vec F S32x16 .f32) : Vec F S400x16 .bf16 :=
  k1_pay2 (View.ld a qA) (View.ld s1 qS1) (View.ld w2 qW2)
/-- The log-softmax rows of a phase-1 point, from its adj block and the whole scratch, stored whole. -/
def lgOf (a : Vec F S400x10000 .f32) (scr : Vec F S10000x16 .bf16) : Vec F S400x16 .f32 :=
  View.canon [⟨qLg, k1_pay3 (View.ld a qA) (View.ld scr qScr)⟩]
/-- The copied half of the adj block: the top 200 rows in phase 0, the bottom 200 in phase 1. -/
def cpTop (a : Vec F S400x10000 .f32) : Vec F S200x10000 .f32 := View.canon [⟨qCp, View.ld a qAtop⟩]
def cpBot (a : Vec F S400x10000 .f32) : Vec F S200x10000 .f32 := View.canon [⟨qCp, View.ld a qAbot⟩]

theorem coverH1 (p0 : Vec F S400x32 .f32) (y : S400x32.Idx) :
    ∃ pc ∈ ([⟨qH1, p0⟩] : List (View.Piece (Elt F) S400x32 .f32)), y ∈ pc.1.set :=
  View.cover_of_tiled [⟨qH1, p0⟩] S400x32.size (by rfl) y
theorem coverLg (p0 : Vec F S400x16 .f32) (y : S400x16.Idx) :
    ∃ pc ∈ ([⟨qLg, p0⟩] : List (View.Piece (Elt F) S400x16 .f32)), y ∈ pc.1.set :=
  View.cover_of_tiled [⟨qLg, p0⟩] S400x16.size (by rfl) y
theorem coverCp (p0 : Vec F S200x10000 .f32) (y : S200x10000.Idx) :
    ∃ pc ∈ ([⟨qCp, p0⟩] : List (View.Piece (Elt F) S200x10000 .f32)), y ∈ pc.1.set :=
  View.cover_of_tiled [⟨qCp, p0⟩] S200x10000.size (by rfl) y

/-! ## Points of the grid: point t is (phase, step) = (t / 25, t % 25) -/

theorem N1_eq : cfg1.N = 50 := N_1
/-- A number below 50 as a point of the grid. -/
def pt (n : ℕ) (h : n < 50) : Fin cfg1.N := ⟨n, by rw [N1_eq]; exact h⟩
/-- The last phase-0 point, whose h1 rows stay in window 3's buffer through phase 1. -/
def pt24 : Fin cfg1.N := pt 24 (by omega)
/-- Point t in phase 0, point 24 afterwards: the point whose h1 rows window 3's buffer holds after point t. -/
def h1pt (t : Fin cfg1.N) : Fin cfg1.N := if t.val < 25 then t else pt24

/-! ## The scratch between points -/

/-- The phase-0 point that writes row `idx 0` of the scratch, and the row's position inside that point's 400 rows. -/
def rowPt (idx : S10000x16.Idx) : Fin cfg1.N := pt ((idx 0).val / 400) (by have := (idx 0).isLt; show (idx 0).val / 400 < 50; have h : (idx 0).val < 10000 := this; omega)
def rowLoc (idx : S10000x16.Idx) : S400x16.Idx := fun a => match a with
  | ⟨0, _⟩ => ⟨(idx 0).val % 400, Nat.mod_lt _ (by decide)⟩
  | ⟨1, _⟩ => ⟨(idx 1).val, (idx 1).isLt⟩

/-- The scratch once phase 0 is over: row r holds the h1 · W2 rows of point r / 400. -/
def hw2full (c : Dev nD) : Vec F S10000x16 .bf16 := fun idx =>
  hw2Of (iblk1 V c 0 (rowPt idx)) (iblk1 V c 1 (rowPt idx)) (iblk1 V c 2 (rowPt idx)) (rowLoc idx)

/-- Before point j the scratch agrees with `hw2full` on the rows the earlier phase-0 points wrote. -/
def ScrOk (c : Dev nD) (j : ℕ) (X : Vec F S10000x16 .bf16) : Prop :=
  ∀ idx : S10000x16.Idx, (idx 0).val < 400 * j → X idx = hw2full V c idx

/-- The region's invariant before point j: the generator register, the other call's three staging buffers at anything,
    and the scratch at contents that agree with `hw2full` on the rows written so far. -/
def Phi1 (c : Dev nD) (j : ℕ) : sProp 𝕄 :=
  iprop((∃ r, prngReg c r)
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ ∃ X : Vec F S10000x16 .bf16, ⌜ScrOk V c j X⌝ ∗ owns (c : Thread nD τ) (Memref.whole cc1_scratch0) fullShare X)

/-! ## The proof data -/

/-- Region 1's proof data on core `c`. After the body at point t: each operand's buffer at its block; window 3 (h1) at the
    h1 rows of point t in phase 0 and still at point 24's rows through phase 1 (its block index does not move, the body
    stores nothing into it, and the last point writes it back); window 4 (the log-softmax) at the rows of point t, read in
    phase 1 only; window 5 (the adj copy) at the top half of the adj block in phase 0 and the bottom half in phase 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => h1Of (iblk1 V c 0 (h1pt t)) (iblk1 V c 1 (h1pt t))
    | ⟨4, _⟩ => lgOf (iblk1 V c 0 t) (hw2full V c)
    | ⟨5, _⟩ => if t.val < 25 then cpTop (iblk1 V c 0 t) else cpBot (iblk1 V c 0 t)
  Φ j := Phi1 V c j.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = h1Of (iblk1 V c 0 (h1pt t)) (iblk1 V c 1 (h1pt t)) := by dsimp only [dat1]
theorem after1_4 (c : Dev nD) (t : Fin cfg1.N) : (dat1 V c).after 4 t = lgOf (iblk1 V c 0 t) (hw2full V c) := by dsimp only [dat1]
theorem after1_5 (c : Dev nD) (t : Fin cfg1.N) :
    (dat1 V c).after 5 t = if t.val < 25 then cpTop (iblk1 V c 0 t) else cpBot (iblk1 V c 0 t) := by dsimp only [dat1]
theorem Phi_eq1 (c : Dev nD) (j : Fin (cfg1.N + 1)) : (dat1 V c).Φ j = Phi1 V c j.val := by dsimp only [dat1]

end Cert.Kernel.Hand

end
-- ==== Proof.K.R1Facts.lean ====
/-
  Region 1's schedule, decided over the 50 points of the grid: which phase a point is in, where its scratch rows start,
  at which points the output windows are written back, and where they are idle.
-/
import proofs.«107694_g18872086298805_cont_8to1_696_27_alg».proof.Proof.Gen.Kernel.Launch
import proofs.«107694_g18872086298805_cont_8to1_696_27_alg».proof.Proof.Gen.Kernel.Skeleton
import proofs.«107694_g18872086298805_cont_8to1_696_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.K.R1Data
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Points 0..24 are phase 0 (the first conditional is taken there and only there). -/
theorem cond1_iff : ∀ t : Fin cfg1.N, k1_cond1 (cfg1.grid.coords t) = 1#1 ↔ t.val < 25 :=
  (by decide +kernel : ∀ t : Fin grid1.N, k1_cond1 (grid1.coords t) = 1#1 ↔ t.val < 25)
/-- Points 25..49 are phase 1. -/
theorem cond2_iff : ∀ t : Fin cfg1.N, k1_cond2 (cfg1.grid.coords t) = 1#1 ↔ 25 ≤ t.val :=
  (by decide +kernel : ∀ t : Fin grid1.N, k1_cond2 (grid1.coords t) = 1#1 ↔ 25 ≤ t.val)
/-- A phase-0 point t writes the scratch rows from 400 t. -/
theorem off1_eq : ∀ t : Fin cfg1.N, t.val < 25 → k1_off1 (cfg1.grid.coords t) = ![400 * t.val, 0] :=
  (by decide +kernel : ∀ t : Fin grid1.N, t.val < 25 → k1_off1 (grid1.coords t) = ![400 * t.val, 0])

/-- Output windows are never fetched. -/
theorem fetch1_3 : ∀ t : Fin cfg1.N, (cfg1.win 3).fetch t = false :=
  (by decide +kernel : ∀ t : Fin grid1.N, win1_3.fetch t = false)
theorem fetch1_4 : ∀ t : Fin cfg1.N, (cfg1.win 4).fetch t = false :=
  (by decide +kernel : ∀ t : Fin grid1.N, win1_4.fetch t = false)
theorem fetch1_5 : ∀ t : Fin cfg1.N, (cfg1.win 5).fetch t = false :=
  (by decide +kernel : ∀ t : Fin grid1.N, win1_5.fetch t = false)

/-- Window 3 (h1) is written back after points 0..23 (its block index moves on) and after the last point. -/
theorem flush1_3 : ∀ t : Fin cfg1.N, (cfg1.win 3).flush t = true ↔ (t.val < 24 ∨ t.val = 49) :=
  (by decide +kernel : ∀ t : Fin grid1.N, win1_3.flush t = true ↔ (t.val < 24 ∨ t.val = 49))
/-- Window 4 (the log-softmax) is written back after every phase-1 point. -/
theorem flush1_4 : ∀ t : Fin cfg1.N, (cfg1.win 4).flush t = true ↔ 25 ≤ t.val :=
  (by decide +kernel : ∀ t : Fin grid1.N, win1_4.flush t = true ↔ 25 ≤ t.val)

/-- Window 3 is idle exactly in phase 1, window 4 exactly in phase 0, window 5 never. -/
theorem idle1_3 : ∀ t : Fin cfg1.N, cfg1.idle 3 (cfg1.grid.coords t) = true ↔ 25 ≤ t.val :=
  (by decide +kernel : ∀ t : Fin grid1.N, idle1 3 (grid1.coords t) = true ↔ 25 ≤ t.val)
theorem idle1_4 : ∀ t : Fin cfg1.N, cfg1.idle 4 (cfg1.grid.coords t) = true ↔ t.val < 25 :=
  (by decide +kernel : ∀ t : Fin grid1.N, idle1 4 (grid1.coords t) = true ↔ t.val < 25)
theorem idle1_5 : ∀ t : Fin cfg1.N, cfg1.idle 5 (cfg1.grid.coords t) = false :=
  (by decide +kernel : ∀ t : Fin grid1.N, idle1 5 (grid1.coords t) = false)

/-- The block indices over the grid: the adj rows of point t are block t % 25; h1's block is t in phase 0 and 24 in
    phase 1; the log-softmax's is 0 in phase 0 and t - 25 in phase 1; the copy's is 2 (t % 25) + t / 25. -/
theorem index1_0 : ∀ t : Fin cfg1.N, (cfg1.win 0).index t = ![t.val % 25, 0] :=
  (by decide +kernel : ∀ t : Fin grid1.N, win1_0.index t = ![t.val % 25, 0])
theorem index1_1 : ∀ t : Fin cfg1.N, (cfg1.win 1).index t = ![0, 0] :=
  (by decide +kernel : ∀ t : Fin grid1.N, win1_1.index t = ![0, 0])
theorem index1_2 : ∀ t : Fin cfg1.N, (cfg1.win 2).index t = ![0, 0] :=
  (by decide +kernel : ∀ t : Fin grid1.N, win1_2.index t = ![0, 0])
theorem index1_3 : ∀ t : Fin cfg1.N, (cfg1.win 3).index t = ![if t.val < 25 then t.val else 24, 0] :=
  (by decide +kernel : ∀ t : Fin grid1.N, win1_3.index t = ![if t.val < 25 then t.val else 24, 0])
theorem index1_4 : ∀ t : Fin cfg1.N, (cfg1.win 4).index t = ![if t.val < 25 then 0 else t.val - 25, 0] :=
  (by decide +kernel : ∀ t : Fin grid1.N, win1_4.index t = ![if t.val < 25 then 0 else t.val - 25, 0])
theorem index1_5 : ∀ t : Fin cfg1.N, (cfg1.win 5).index t = ![2 * (t.val % 25) + t.val / 25, 0] :=
  (by decide +kernel : ∀ t : Fin grid1.N, win1_5.index t = ![2 * (t.val % 25) + t.val / 25, 0])

end Cert.Kernel.Hand

end
-- ==== Proof.K.R1Before.lean ====
/-
  Region 1: what each window's staging buffer holds when the body runs at a point.
  The three operands hold their blocks (fetched there or kept from the point before). Window 3 (h1) keeps, through all
  of phase 1, the rows point 24 stored: its block index does not move after point 24 and it is idle there, so the
  look-back through the idle points ends at point 24's stored contents.
-/
import proofs.«107694_g18872086298805_cont_8to1_696_27_alg».proof.Proof.Gen.Kernel.Launch
import proofs.«107694_g18872086298805_cont_8to1_696_27_alg».proof.Proof.Gen.Kernel.Skeleton
import proofs.«107694_g18872086298805_cont_8to1_696_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.K.R1Data
import proofs.«107694_g18872086298805_cont_8to1_696_27_alg».proof.Proof.K.R1Facts
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Between points 24 and 48 window 3 is not written back. -/
theorem flush1_3_mid (t' : Fin cfg1.N) (h1 : 24 ≤ t'.val) (h2 : t'.val < 49) : (cfg1.win 3).flush t' = false :=
  Bool.eq_false_iff.mpr fun h => by
    have h3 := (flush1_3 t').mp h
    omega

/-- In phase 1 window 3's buffer holds what the body left at the point before. -/
theorem before1_3_step (c : Dev nD) (t : Fin cfg1.N) (ht : 25 ≤ t.val) (d) :
    (dat1 V c).before 3 t d = (dat1 V c).left 3 ⟨t.val - 1, Nat.lt_of_le_of_lt (Nat.sub_le _ _) t.isLt⟩ d := by
  have hN : t.val < 50 := Nat.lt_of_lt_of_eq t.isLt N1_eq
  rw [(dat1 V c).before_of_pos 3 t (by omega) (fetch1_3 t),
    flush1_3_mid ⟨t.val - 1, Nat.lt_of_le_of_lt (Nat.sub_le _ _) t.isLt⟩ (by show 24 ≤ t.val - 1; omega) (by show t.val - 1 < 49; omega),
    if_neg Bool.false_ne_true]

/-- At a phase-1 point the body leaves window 3's buffer as it found it. -/
theorem left1_3_idle (c : Dev nD) (t' : Fin cfg1.N) (h : 25 ≤ t'.val) (d) :
    (dat1 V c).left 3 t' d = (dat1 V c).before 3 t' d := by
  unfold Dat.left
  rw [(idle1_3 t').mpr h]

/-- At point 24 the body leaves point 24's h1 rows in window 3's buffer. -/
theorem left1_3_24 (c : Dev nD) (t' : Fin cfg1.N) (h : t'.val = 24) (d) :
    (dat1 V c).left 3 t' d = h1Of (iblk1 V c 0 pt24) (iblk1 V c 1 pt24) := by
  have hi : cfg1.idle 3 (cfg1.grid.coords t') = false :=
    Bool.eq_false_iff.mpr fun hh => by have := (idle1_3 t').mp hh; omega
  have ht' : t' = pt24 := Fin.ext h
  subst ht'
  unfold Dat.left
  rw [hi]
  show (dat1 V c).kept 3 pt24 d = _
  unfold Dat.kept
  rw [Pipeline.fill_of_clip_none 3 _ (fun _ => rfl) d ((dat1 V c).after 3 pt24), Window.fill_cut, after1_3]
  have hp : h1pt pt24 = pt24 := by unfold h1pt; exact ite_self _
  rw [hp]

/-- In phase 1 window 3's buffer still holds point 24's h1 rows. -/
theorem before1_3_late (c : Dev nD) (t : Fin cfg1.N) (ht : 25 ≤ t.val) (d) :
    (dat1 V c).before 3 t d = h1Of (iblk1 V c 0 pt24) (iblk1 V c 1 pt24) := by
  obtain ⟨n, hn⟩ := t
  dsimp only at ht
  revert hn
  induction n, ht using Nat.le_induction with
  | base =>
    intro hn
    rw [before1_3_step V c ⟨25, hn⟩ (Nat.le_refl _) d]
    exact left1_3_24 V c _ rfl d
  | succ m hm ih =>
    intro hn
    rw [before1_3_step V c ⟨m + 1, hn⟩ (by show 25 ≤ m + 1; omega) d,
      left1_3_idle V c _ (by show 25 ≤ m + 1 - 1; omega) d]
    exact ih (Nat.lt_of_succ_lt hn)

end Cert.Kernel.Hand

end
-- ==== Proof.K.R1Body.lean ====
/-
  Region 1: the body's runs in its two phases, and the body obligation at every point.
-/
import proofs.«107694_g18872086298805_cont_8to1_696_27_alg».proof.Proof.Gen.Kernel.Launch
import proofs.«107694_g18872086298805_cont_8to1_696_27_alg».proof.Proof.Gen.Kernel.Skeleton
import proofs.«107694_g18872086298805_cont_8to1_696_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«107694_g18872086298805_cont_8to1_696_27_alg».proof.Proof.K.R1Data
import proofs.«107694_g18872086298805_cont_8to1_696_27_alg».proof.Proof.K.R1Facts
import proofs.«107694_g18872086298805_cont_8to1_696_27_alg».proof.Proof.K.R1Before
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch across a phase-0 point -/

/-- How a phase-0 point changes the scratch: rows [o, o + 400) now hold the payload P, every other row is kept. -/
def ScrStep (o : ℕ) (P : Vec F S400x16 .bf16) (X X' : Vec F S10000x16 .bf16) : Prop :=
  (∀ (idx : S10000x16.Idx) (x : S400x16.Idx), (idx 0).val = o + (x 0).val → (idx 1).val = (x 1).val → X' idx = P x)
  ∧ (∀ idx : S10000x16.Idx, ((idx 0).val < o ∨ o + 400 ≤ (idx 0).val) → X' idx = X idx)

/-! ## The body's two runs -/

set_option maxHeartbeats 1000000 in
/-- Phase 0: the operands at x0, x1, x2, the scratch at X. The body stores the h1 rows and the top half of the adj block
    whole, leaves the log-softmax buffer alone, and overwrites rows [o, o + 400) of the scratch with h1 · W2. -/
theorem sound_kernel1A (c : Dev nD) (E : Set ℕ) (i : grid1.Coords) (h1 : k1_cond1 i = 1#1) (h2 : ¬ k1_cond2 i = 1#1)
    (o : ℕ) (hoff : k1_off1 i = ![o, 0])
    (arg2 : Memref sig .tc .vmem S400x10000 .f32) (harg2 : arg2.IsWhole) (arg3 : Memref sig .tc .vmem S10000x32 .bf16) (harg3 : arg3.IsWhole)
    (arg4 : Memref sig .tc .vmem S32x16 .f32) (harg4 : arg4.IsWhole) (arg5 : Memref sig .tc .vmem S400x32 .f32) (harg5 : arg5.IsWhole)
    (arg6 : Memref sig .tc .vmem S400x16 .f32) (harg6 : arg6.IsWhole) (arg7 : Memref sig .tc .vmem S200x10000 .f32) (harg7 : arg7.IsWhole)
    (arg8 : Memref sig .tc .vmem S10000x16 .bf16) (harg8 : arg8.IsWhole)
    (x0 : Vec F S400x10000 .f32) (x1 : Vec F S10000x32 .bf16) (x2 : Vec F S32x16 .f32) (d6 : Vec F S400x16 .f32)
    (X : Vec F S10000x16 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d6 ∗ (∃ d, owns (c : Thread nD τ) arg7 fullShare d)
        ∗ owns (c : Thread nD τ) arg8 fullShare X
        ∗ (iprop(owns (c : Thread nD τ) arg2 fullShare x0 ∗ owns (c : Thread nD τ) arg3 fullShare x1 ∗ owns (c : Thread nD τ) arg4 fullShare x2
            ∗ owns (c : Thread nD τ) arg5 fullShare (h1Of x0 x1) ∗ owns (c : Thread nD τ) arg6 fullShare d6
            ∗ owns (c : Thread nD τ) arg7 fullShare (cpTop x0)
            ∗ (∃ X', ⌜ScrStep o (hw2Of x0 x1 x2) X X'⌝ ∗ owns (c : Thread nD τ) arg8 fullShare X')) -∗ K ⟨⟩))
      ⊢ wp frame (wpE (defs₀ (F := F)) Variants.none c none) E (cc1__fused_kernel i arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%d5, %f5, -, H5⟩, ⟨%f6, %hf6, H6⟩, ⟨%d7, %f7, -, H7⟩, ⟨%f8, %hf8, H8⟩, Hk⟩
  subst hf0; subst hf1; subst hf2; subst hf6; subst hf8
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (coverH1 _)
  isplitl [H6]
  · iexists f6; isplitr; · ipureintro; rfl
    iexact H6
  isplitl [H7]
  · iexists _; isplitr
    swap; · iexact H7
    ipureintro
    exact View.read_writes_eq_canon _ _ _ (coverCp _)
  iexists _; isplitr
  swap
  · iexists _; isplitr
    swap; · iexact H8
    ipureintro; rfl
  ipureintro
  refine ⟨fun idx x hx0 hx1 => ?_, fun idx hidx => ?_⟩
  · exact View.read_writes_cons_unit_of_mem _ _ _ _ _ idx x hoff
      (Fin.forall_fin_two.mpr ⟨hx0, by rw [hx1]; exact (Nat.zero_add _).symm⟩)
  · exact View.read_writes_cons_unit_of_not_mem _ _ _ _ _ idx hoff (0 : Fin 2) hidx

set_option maxHeartbeats 1000000 in
/-- Phase 1: the adj block at x0, the scratch at X. The body stores the log-softmax rows and the bottom half of the adj
    block whole, and leaves the h1 buffer, the other operands and the scratch alone. -/
theorem sound_kernel1B (c : Dev nD) (E : Set ℕ) (i : grid1.Coords) (h1 : ¬ k1_cond1 i = 1#1) (h2 : k1_cond2 i = 1#1)
    (arg2 : Memref sig .tc .vmem S400x10000 .f32) (harg2 : arg2.IsWhole) (arg3 : Memref sig .tc .vmem S10000x32 .bf16) (harg3 : arg3.IsWhole)
    (arg4 : Memref sig .tc .vmem S32x16 .f32) (harg4 : arg4.IsWhole) (arg5 : Memref sig .tc .vmem S400x32 .f32) (harg5 : arg5.IsWhole)
    (arg6 : Memref sig .tc .vmem S400x16 .f32) (harg6 : arg6.IsWhole) (arg7 : Memref sig .tc .vmem S200x10000 .f32) (harg7 : arg7.IsWhole)
    (arg8 : Memref sig .tc .vmem S10000x16 .bf16) (harg8 : arg8.IsWhole)
    (x0 : Vec F S400x10000 .f32) (x1 : Vec F S10000x32 .bf16) (x2 : Vec F S32x16 .f32) (d5 : Vec F S400x32 .f32)
    (X : Vec F S10000x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ (∃ d, owns (c : Thread nD τ) arg6 fullShare d) ∗ (∃ d, owns (c : Thread nD τ) arg7 fullShare d)
        ∗ owns (c : Thread nD τ) arg8 fullShare X
        ∗ (iprop(owns (c : Thread nD τ) arg2 fullShare x0 ∗ owns (c : Thread nD τ) arg3 fullShare x1 ∗ owns (c : Thread nD τ) arg4 fullShare x2
            ∗ owns (c : Thread nD τ) arg5 fullShare d5 ∗ owns (c : Thread nD τ) arg6 fullShare (lgOf x0 X)
            ∗ owns (c : Thread nD τ) arg7 fullShare (cpBot x0)
            ∗ owns (c : Thread nD τ) arg8 fullShare X) -∗ K ⟨⟩))
      ⊢ wp frame (wpE (defs₀ (F := F)) Variants.none c none) E (cc1__fused_kernel i arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f5, %hf5, H5⟩, ⟨%d6, %f6, -, H6⟩, ⟨%d7, %f7, -, H7⟩, ⟨%f8, %hf8, H8⟩, Hk⟩
  subst hf0; subst hf1; subst hf2; subst hf5; subst hf8
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists _; isplitr
    swap; · iexact H6
    ipureintro
    exact View.read_writes_eq_canon _ _ _ (coverLg _)
  isplitl [H7]
  · iexists _; isplitr
    swap; · iexact H7
    ipureintro
    exact View.read_writes_eq_canon _ _ _ (coverCp _)
  iexists f8; isplitr; · ipureintro; rfl
  iexact H8

/-! ## The scratch invariant across a point -/

/-- A phase-0 point t takes the scratch from agreeing with hw2full on rows below 400 t to agreeing on rows below 400 (t + 1):
    a row below 400 t is kept, a row in [400 t, 400 t + 400) now holds point t's h1 · W2 row. -/
theorem scrOk_step (c : Dev nD) (t : Fin cfg1.N) (X X' : Vec F S10000x16 .bf16) (hX : ScrOk V c t.val X)
    (hX' : ScrStep (400 * t.val) (hw2Of (iblk1 V c 0 t) (iblk1 V c 1 t) (iblk1 V c 2 t)) X X') :
    ScrOk V c (t.val + 1) X' := by
  intro idx hidx
  by_cases hlt : (idx 0).val < 400 * t.val
  · rw [hX'.2 idx (Or.inl hlt)]; exact hX idx hlt
  · have hpt : rowPt idx = t := by
      apply Fin.ext
      show (idx 0).val / 400 = t.val
      omega
    have h0 : (idx 0).val = 400 * t.val + (rowLoc idx 0).val := by
      show (idx 0).val = 400 * t.val + (idx 0).val % 400
      omega
    have h1 : (idx 1).val = (rowLoc idx 1).val := rfl
    rw [hX'.1 idx (rowLoc idx) h0 h1]
    unfold hw2full
    rw [hpt]

/-- From point 25 on every row of the scratch has been written. -/
theorem scrOk_full (c : Dev nD) (j : ℕ) (hj : 25 ≤ j) (X : Vec F S10000x16 .bf16) (hX : ScrOk V c j X) : X = hw2full V c := by
  funext idx
  have := (idx 0).isLt
  have h : (idx 0).val < 10000 := this
  exact hX idx (by omega)

/-! ## What the obligation asks of a window's buffer, by the window's state at the point -/

theorem leaves1_live (c : Dev nD) (w : Fin cfg1.W) (t : Fin cfg1.N) (hi : cfg1.idle w (cfg1.grid.coords t) = false) :
    (dat1 V c).leavesExact w t = owns (c : Thread nD τ) ((cfg1.win w).stage (cfg1.slots t w)) fullShare ((dat1 V c).after w t) := by
  unfold Dat.leavesExact; rw [hi]

theorem leaves1_flush (c : Dev nD) (w : Fin cfg1.W) (t : Fin cfg1.N) (hi : cfg1.idle w (cfg1.grid.coords t) = true)
    (hf : (cfg1.win w).flush t = true) :
    (dat1 V c).leavesExact w t = owns (c : Thread nD τ) ((cfg1.win w).stage (cfg1.slots t w)) fullShare ((dat1 V c).after w t) := by
  unfold Dat.leavesExact; rw [hi, hf]

theorem bool_false_of_not {b : Bool} {p : Prop} (h : b = true ↔ p) (hp : ¬ p) : b = false := by
  cases b with
  | false => rfl
  | true => exact absurd (h.mp rfl) hp

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    leaves1_live V c 0 t rfl, leaves1_live V c 1 t rfl, leaves1_live V c 2 t rfl, leaves1_live V c 5 t (idle1_5 t),
    after1_0, after1_1, after1_2, after1_5, Phi_eq1, Phi_eq1]
  by_cases ht : t.val < 25
  · -- phase 0
    have hc1 : k1_cond1 (grid1.coords t) = 1#1 := (cond1_iff t).mpr ht
    have hc2 : ¬ k1_cond2 (grid1.coords t) = 1#1 := fun h => by have := (cond2_iff t).mp h; omega
    have hi3 : cfg1.idle 3 (cfg1.grid.coords t) = false := bool_false_of_not (idle1_3 t) (by omega)
    have hi4 : cfg1.idle 4 (cfg1.grid.coords t) = true := (idle1_4 t).mpr ht
    have hf4 : (cfg1.win 4).flush t = false := bool_false_of_not (flush1_4 t) (by omega)
    have hh : h1pt t = t := if_pos ht
    rw [leaves1_live V c 3 t hi3, (dat1 V c).leavesExact_idle 4 t hi4 hf4, after1_3, if_pos ht, hh]
    unfold Phi1
    iintro ⟨⟨Hr, Hs0, Hs1, Hs2, %X, %hX, H8⟩, Ho, ⟨%d0, H0⟩, ⟨%d1, H1⟩, ⟨%d2, H2⟩, ⟨%d3, H3⟩, ⟨%d4, H4⟩, ⟨%d5, H5⟩⟩
    iapply (sound_kernel1A c Set.univ (grid1.coords t) hc1 hc2 (400 * t.val) (off1_eq t ht) _ _ _ _ _ _ _ _ _ _ _ _ _ _
      (iblk1 V c 0 t) (iblk1 V c 1 t) (iblk1 V c 2 t) ((dat1 V c).before 4 t d4) X _)
    isplitl [H0]; · iexact H0
    isplitl [H1]; · iexact H1
    isplitl [H2]; · iexact H2
    isplitl [H3]; · iexists _; iexact H3
    isplitl [H4]; · iexact H4
    isplitl [H5]; · iexists _; iexact H5
    isplitl [H8]; · iexact H8
    iintro ⟨H0, H1, H2, H3, H4, H5, %X', %hX', H8⟩
    isplitl [Hr Hs0 Hs1 Hs2 H8]
    · isplitl [Hr]; · iexact Hr
      isplitl [Hs0]; · iexact Hs0
      isplitl [Hs1]; · iexact Hs1
      isplitl [Hs2]; · iexact Hs2
      iexists X'; isplitr
      · ipureintro; exact scrOk_step V c t X X' hX hX'
      iexact H8
    isplitl [Ho]; · iexact Ho
    isplitl [H0]; · iexact H0
    isplitl [H1]; · iexact H1
    isplitl [H2]; · iexact H2
    isplitl [H3]; · iexact H3
    isplitl [H4]; · iexists d4; iexact H4
    iexact H5
  · -- phase 1
    have ht' : 25 ≤ t.val := by omega
    have hc1 : ¬ k1_cond1 (grid1.coords t) = 1#1 := fun h => by have := (cond1_iff t).mp h; omega
    have hc2 : k1_cond2 (grid1.coords t) = 1#1 := (cond2_iff t).mpr ht'
    have hi3 : cfg1.idle 3 (cfg1.grid.coords t) = true := (idle1_3 t).mpr ht'
    have hi4 : cfg1.idle 4 (cfg1.grid.coords t) = false := bool_false_of_not (idle1_4 t) ht
    -- window 3 is idle: it keeps point 24's rows, which is what the obligation asks for whether or not it is written back
    have h3 : ∀ d3, owns (c : Thread nD τ) (st1_3 t) fullShare ((dat1 V c).before 3 t d3) ⊢ (dat1 V c).leavesExact 3 t := by
      intro d3
      by_cases h49 : t.val = 49
      · have hh : h1pt t = pt24 := if_neg ht
        rw [leaves1_flush V c 3 t hi3 ((flush1_3 t).mpr (Or.inr h49)), after1_3, before1_3_late V c t ht' d3, hh]
      · have hf3 : (cfg1.win 3).flush t = false := bool_false_of_not (flush1_3 t) (by omega)
        rw [(dat1 V c).leavesExact_idle 3 t hi3 hf3]
        iintro H; iexists d3; iexact H
    rw [leaves1_live V c 4 t hi4, after1_4, if_neg ht]
    unfold Phi1
    iintro ⟨⟨Hr, Hs0, Hs1, Hs2, %X, %hX, H8⟩, Ho, ⟨%d0, H0⟩, ⟨%d1, H1⟩, ⟨%d2, H2⟩, ⟨%d3, H3⟩, ⟨%d4, H4⟩, ⟨%d5, H5⟩⟩
    have hfull : X = hw2full V c := scrOk_full V c t.val ht' X hX
    subst hfull
    iapply (sound_kernel1B c Set.univ (grid1.coords t) hc1 hc2 _ _ _ _ _ _ _ _ _ _ _ _ _ _
      (iblk1 V c 0 t) (iblk1 V c 1 t) (iblk1 V c 2 t) ((dat1 V c).before 3 t d3) (hw2full V c) _)
    isplitl [H0]; · iexact H0
    isplitl [H1]; · iexact H1
    isplitl [H2]; · iexact H2
    isplitl [H3]; · iexact H3
    isplitl [H4]; · iexists _; iexact H4
    isplitl [H5]; · iexists _; iexact H5
    isplitl [H8]; · iexact H8
    iintro ⟨H0, H1, H2, H3, H4, H5, H8⟩
    isplitl [Hr Hs0 Hs1 Hs2 H8]
    · isplitl [Hr]; · iexact Hr
      isplitl [Hs0]; · iexact Hs0
      isplitl [Hs1]; · iexact Hs1
      isplitl [Hs2]; · iexact Hs2
      iexists (hw2full V c); isplitr
      · ipureintro; exact fun idx _ => rfl
      iexact H8
    isplitl [Ho]; · iexact Ho
    isplitl [H0]; · iexact H0
    isplitl [H1]; · iexact H1
    isplitl [H2]; · iexact H2
    isplitl [H3]; · iapply (h3 d3); iexact H3
    isplitl [H4]; · iexact H4
    iexact H5

/-- The library's body obligation for region 1, at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The kernel's program as a whole: @main is the two regions in order. This module threads the buffers' contents through
  them — the launch memory, then region 0's result array at what its write-back leaves, then region 1's three result
  arrays at what theirs leave — gives every region its proof data at its entry contents, states each region as a segment of
  @main between thread states "every unscoped buffer at the boundary's contents, the generator register at some state,
  nothing owed", and launches. The run's post names every result array by what the write-backs fold to, and has every
  argument array as launched. Any float family.
-/
import proofs.«107694_g18872086298805_cont_8to1_696_27_alg».proof.Proof.Gen.Kernel.Launch
import proofs.«107694_g18872086298805_cont_8to1_696_27_alg».proof.Proof.Gen.Kernel.Skeleton
import proofs.«107694_g18872086298805_cont_8to1_696_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.K.R0
import proofs.«107694_g18872086298805_cont_8to1_696_27_alg».proof.Proof.K.R1Data
import proofs.«107694_g18872086298805_cont_8to1_696_27_alg».proof.Proof.K.R1Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 1's entry contents. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What region 1 finds in the arrays it reads, and the arguments at the end -/

/-- Region 1 finds S1's array at what region 0's write-back left. -/
theorem V1_main_v0 (c : Dev nD) : V1 m ρ c main_v0 = (dat0 (V0 m ρ) c).arrAt 2 cfg0.N := W1_arr m ρ c 2
/-- and adj and W2 as launched (region 0 does not stage them). -/
theorem V1_main_arg1 (c : Dev nD) : V1 m ρ c main_arg1 = m ((c : Thread nD τ).loc main_arg1) :=
  W1_of_ne m ρ c main_arg1 (by decide)
theorem V1_main_arg3 (c : Dev nD) : V1 m ρ c main_arg3 = m ((c : Thread nD τ).loc main_arg3) :=
  W1_of_ne m ρ c main_arg3 (by decide)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := V1_main_arg1 m ρ c
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 2).trans (((dat1 (V1 m ρ) c).arrAt_in 2 rfl _).trans (A_eq1 (V1 m ρ) c 2))
    _ = m ((c : Thread nD τ).loc main_arg3) := V1_main_arg3 m ρ c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The scratch enters region 1's invariant at whatever it holds (no row of it is claimed yet), beside the other call's
    staging buffers and the generator register. -/
theorem phi1_in (c : Dev nD) :
    iprop((∃ r, prngReg c r) ∗ Pipeline.scopedRest (Ix := Unit) (Name := ℕ) (U := UR sig nD τ) (Lvl := ℕ) (Val := Elt F) spec1 c)
      ⊢ (Phi1 (V1 m ρ) c 0 : sProp 𝕄) := by
  rw [scopedRest1_eq]; unfold Phi1
  simp only [owns_whole]
  iintro ⟨Hp, Ha, Hb, Hc, ⟨%f, Hs⟩⟩
  isplitl [Hp]; · iexact Hp
  isplitl [Ha]; · iexact Ha
  isplitl [Hb]; · iexact Hb
  isplitl [Hc]; · iexact Hc
  iexists f
  isplitr
  · ipureintro; intro idx h; exact absurd h (by omega)
  iexact Hs

/-- and leaves it at whatever it then holds. -/
theorem phi1_out (c : Dev nD) (j : ℕ) :
    (Phi1 (V1 m ρ) c j : sProp 𝕄)
      ⊢ iprop((∃ r, prngReg c r) ∗ Pipeline.scopedRest (Ix := Unit) (Name := ℕ) (U := UR sig nD τ) (Lvl := ℕ) (Val := Elt F) spec1 c) := by
  rw [scopedRest1_eq]; unfold Phi1
  simp only [owns_whole]
  iintro ⟨Hp, Ha, Hb, Hc, ⟨%X, -, Hs⟩⟩
  isplitl [Hp]; · iexact Hp
  isplitl [Ha]; · iexact Ha
  isplitl [Hb]; · iexact Hb
  isplitl [Hc]; · iexact Hc
  iexists X; iexact Hs

set_option backward.isDefEq.respectTransparency.types false in
/-- Region 1 over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V1 m ρ) c 0 from rfl]
    iintro ⟨Hp, -, Hr⟩
    iapply (phi1_in m ρ c)
    isplitl [Hp]; · iexact Hp
    iexact Hr
  hout c := by
    rw [Pipeline.ownSems0_none, show (pdats m ρ 1 c).Φ (Fin.last _) = Phi1 (V1 m ρ) c (Fin.last cfg1.N).val from rfl]
    iintro H
    ihave H' := (phi1_out m ρ c _) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state each result array holds what its region's write-backs fold to and each argument array is as launched. -/
theorem run_main : θ_run defs (onTc (τ := τ) (main (F := F))) ⟨m, fun _ => 0, ρ⟩ (fun r => ∀ c : Dev nD,
      r.2.mem ((c.tc : Thread nD τ).loc main_v1_1) = (dat1 (V1 m ρ) c).arrAt 4 cfg1.N
      ∧ r.2.mem ((c.tc : Thread nD τ).loc main_v1_0) = (dat1 (V1 m ρ) c).arrAt 3 cfg1.N
      ∧ r.2.mem ((c.tc : Thread nD τ).loc main_v1_2) = (dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1_1 (by decide))).trans (W2_arr m ρ c 4),
       (h c _ (mem_uc main_v1_0 (by decide))).trans (W2_arr m ρ c 3),
       (h c _ (mem_uc main_v1_2 (by decide))).trans (W2_arr m ρ c 5),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2.2) (run_main m ρ)

end Cert.Kernel.Hand

end
-- ==== Proof.KI.R0.lean ====
/-
  Region 0 of the kernel's program: the gridless call that forms S1 = x · W1 (rounded to bf16, which at the
  ideal instance is the identity). One grid point; both operands are staged whole, the result is stored whole
  and written back. Everything is stated at a parameter `V`, the TensorCore's buffer contents when the region
  is entered, and generic in the float family.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the (only) point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev rX : Rect S10000x128 := Rect.unit (s := S10000x128) ![0, 0] S10000x128.size inb_S10000x128_S10000x128_0_0
abbrev rW1 : Rect S128x32 := Rect.unit (s := S128x32) ![0, 0] S128x32.size inb_S128x32_S128x32_0_0
abbrev rS1 : Rect S10000x32 := Rect.unit (s := S10000x32) ![0, 0] S10000x32.size inb_S10000x32_S10000x32_0_0

/-- What the body leaves in the result's staging buffer: the product's payload of the two loaded operands, stored whole. -/
def s1Of (x0 : Vec F S10000x128 .f32) (x1 : Vec F S128x32 .f32) : Vec F S10000x32 .bf16 :=
  View.canon [⟨rS1, k0_pay1 (View.ld x0 rX) (View.ld x1 rW1)⟩]

/-- The one store covers the buffer. -/
theorem coverS1 (p0 : Vec F S10000x32 .bf16) (y : S10000x32.Idx) :
    ∃ pc ∈ ([⟨rS1, p0⟩] : List (View.Piece (Elt F) S10000x32 .bf16)), y ∈ pc.1.set :=
  View.cover_of_tiled [⟨rS1, p0⟩] S10000x32.size (by rfl) y

/-! ## The body's triple -/

set_option maxHeartbeats 1000000 in
/-- The body on whole staging memrefs, the operands' at contents `x0`, `x1` and the result's at anything, runs to the
    continuation with the operands' as they were and the result's at `s1Of x0 x1`. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .bf16) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (s1Of x0 x1)) -∗ K ⟨⟩))
      ⊢ wp frame (wpE (defs₀ (F := F)) Variants.none c none) E (cc0__pre_kernel arg0 harg0 arg1 harg1 arg2 harg2) K := by
  simp only [cc0__pre_kernel_eq_skeleton]; unfold cc0__pre_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverS1 _)

/-! ## The proof data -/

/-- Region 0's proof data on core `c`: the arrays as the region finds them; after the body each operand's buffer at its
    block and the result's at `s1Of` of the two blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => s1Of (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = s1Of (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Data.lean ====
/-
  Region 1 of the kernel's program: the fused two-phase call over the grid (2, 25). In phase 0 (points 0..24) point t
  stores rows [400t, 400t+400) of h1 = relu(adj · S1), keeps the same rows of h1 · W2 in a scratch buffer that lives
  across the points, and copies the top half of its adj block; in phase 1 (points 25..49) point t stores rows
  [400(t-25), …) of log_softmax(relu(adj · scratch)) and copies the bottom half of its adj block.
  This module holds the definitions: the blocks, what the body leaves in each buffer, the scratch's contents between
  points, and the proof data. Everything is at a parameter `V` (the buffers' contents at the region's entry) and generic
  in the float family.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev qA : Rect S400x10000 := Rect.unit (s := S400x10000) ![0, 0] S400x10000.size inb_S400x10000_S400x10000_0_0
abbrev qAtop : Rect S400x10000 := Rect.unit (s := S400x10000) ![0, 0] S200x10000.size inb_S400x10000_S200x10000_0_0
abbrev qAbot : Rect S400x10000 := Rect.unit (s := S400x10000) ![200, 0] S200x10000.size inb_S400x10000_S200x10000_200_0
abbrev qS1 : Rect S10000x32 := Rect.unit (s := S10000x32) ![0, 0] S10000x32.size inb_S10000x32_S10000x32_0_0
abbrev qW2 : Rect S32x16 := Rect.unit (s := S32x16) ![0, 0] S32x16.size inb_S32x16_S32x16_0_0
abbrev qH1 : Rect S400x32 := Rect.unit (s := S400x32) ![0, 0] S400x32.size inb_S400x32_S400x32_0_0
abbrev qLg : Rect S400x16 := Rect.unit (s := S400x16) ![0, 0] S400x16.size inb_S400x16_S400x16_0_0
abbrev qCp : Rect S200x10000 := Rect.unit (s := S200x10000) ![0, 0] S200x10000.size inb_S200x10000_S200x10000_0_0
abbrev qScr : Rect S10000x16 := Rect.unit (s := S10000x16) ![0, 0] S10000x16.size inb_S10000x16_S10000x16_0_0

/-! ## What the body leaves, as functions of what it loads -/

/-- The h1 rows of a point: relu of the adj block times S1, stored whole. -/
def h1Of (a : Vec F S400x10000 .f32) (s1 : Vec F S10000x32 .bf16) : Vec F S400x32 .f32 :=
  View.canon [⟨qH1, k1_pay1 (View.ld a qA) (View.ld s1 qS1)⟩]
/-- The rows of h1 · W2 a phase-0 point writes into the scratch. -/
def hw2Of (a : Vec F S400x10000 .f32) (s1 : Vec F S10000x32 .bf16) (w2 : Vec F S32x16 .f32) : Vec F S400x16 .bf16 :=
  k1_pay2 (View.ld a qA) (View.ld s1 qS1) (View.ld w2 qW2)
/-- The log-softmax rows of a phase-1 point, from its adj block and the whole scratch, stored whole. -/
def lgOf (a : Vec F S400x10000 .f32) (scr : Vec F S10000x16 .bf16) : Vec F S400x16 .f32 :=
  View.canon [⟨qLg, k1_pay3 (View.ld a qA) (View.ld scr qScr)⟩]
/-- The copied half of the adj block: the top 200 rows in phase 0, the bottom 200 in phase 1. -/
def cpTop (a : Vec F S400x10000 .f32) : Vec F S200x10000 .f32 := View.canon [⟨qCp, View.ld a qAtop⟩]
def cpBot (a : Vec F S400x10000 .f32) : Vec F S200x10000 .f32 := View.canon [⟨qCp, View.ld a qAbot⟩]

theorem coverH1 (p0 : Vec F S400x32 .f32) (y : S400x32.Idx) :
    ∃ pc ∈ ([⟨qH1, p0⟩] : List (View.Piece (Elt F) S400x32 .f32)), y ∈ pc.1.set :=
  View.cover_of_tiled [⟨qH1, p0⟩] S400x32.size (by rfl) y
theorem coverLg (p0 : Vec F S400x16 .f32) (y : S400x16.Idx) :
    ∃ pc ∈ ([⟨qLg, p0⟩] : List (View.Piece (Elt F) S400x16 .f32)), y ∈ pc.1.set :=
  View.cover_of_tiled [⟨qLg, p0⟩] S400x16.size (by rfl) y
theorem coverCp (p0 : Vec F S200x10000 .f32) (y : S200x10000.Idx) :
    ∃ pc ∈ ([⟨qCp, p0⟩] : List (View.Piece (Elt F) S200x10000 .f32)), y ∈ pc.1.set :=
  View.cover_of_tiled [⟨qCp, p0⟩] S200x10000.size (by rfl) y

/-! ## Points of the grid: point t is (phase, step) = (t / 25, t % 25) -/

theorem N1_eq : cfg1.N = 50 := N_1
/-- A number below 50 as a point of the grid. -/
def pt (n : ℕ) (h : n < 50) : Fin cfg1.N := ⟨n, by rw [N1_eq]; exact h⟩
/-- The last phase-0 point, whose h1 rows stay in window 3's buffer through phase 1. -/
def pt24 : Fin cfg1.N := pt 24 (by omega)
/-- Point t in phase 0, point 24 afterwards: the point whose h1 rows window 3's buffer holds after point t. -/
def h1pt (t : Fin cfg1.N) : Fin cfg1.N := if t.val < 25 then t else pt24

/-! ## The scratch between points -/

/-- The phase-0 point that writes row `idx 0` of the scratch, and the row's position inside that point's 400 rows. -/
def rowPt (idx : S10000x16.Idx) : Fin cfg1.N := pt ((idx 0).val / 400) (by have := (idx 0).isLt; show (idx 0).val / 400 < 50; have h : (idx 0).val < 10000 := this; omega)
def rowLoc (idx : S10000x16.Idx) : S400x16.Idx := fun a => match a with
  | ⟨0, _⟩ => ⟨(idx 0).val % 400, Nat.mod_lt _ (by decide)⟩
  | ⟨1, _⟩ => ⟨(idx 1).val, (idx 1).isLt⟩

/-- The scratch once phase 0 is over: row r holds the h1 · W2 rows of point r / 400. -/
def hw2full (c : Dev nD) : Vec F S10000x16 .bf16 := fun idx =>
  hw2Of (iblk1 V c 0 (rowPt idx)) (iblk1 V c 1 (rowPt idx)) (iblk1 V c 2 (rowPt idx)) (rowLoc idx)

/-- Before point j the scratch agrees with `hw2full` on the rows the earlier phase-0 points wrote. -/
def ScrOk (c : Dev nD) (j : ℕ) (X : Vec F S10000x16 .bf16) : Prop :=
  ∀ idx : S10000x16.Idx, (idx 0).val < 400 * j → X idx = hw2full V c idx

/-- The region's invariant before point j: the generator register, the other call's three staging buffers at anything,
    and the scratch at contents that agree with `hw2full` on the rows written so far. -/
def Phi1 (c : Dev nD) (j : ℕ) : sProp 𝕄 :=
  iprop((∃ r, prngReg c r)
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ ∃ X : Vec F S10000x16 .bf16, ⌜ScrOk V c j X⌝ ∗ owns (c : Thread nD τ) (Memref.whole cc1_scratch0) fullShare X)

/-! ## The proof data -/

/-- Region 1's proof data on core `c`. After the body at point t: each operand's buffer at its block; window 3 (h1) at the
    h1 rows of point t in phase 0 and still at point 24's rows through phase 1 (its block index does not move, the body
    stores nothing into it, and the last point writes it back); window 4 (the log-softmax) at the rows of point t, read in
    phase 1 only; window 5 (the adj copy) at the top half of the adj block in phase 0 and the bottom half in phase 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => h1Of (iblk1 V c 0 (h1pt t)) (iblk1 V c 1 (h1pt t))
    | ⟨4, _⟩ => lgOf (iblk1 V c 0 t) (hw2full V c)
    | ⟨5, _⟩ => if t.val < 25 then cpTop (iblk1 V c 0 t) else cpBot (iblk1 V c 0 t)
  Φ j := Phi1 V c j.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = h1Of (iblk1 V c 0 (h1pt t)) (iblk1 V c 1 (h1pt t)) := by dsimp only [dat1]
theorem after1_4 (c : Dev nD) (t : Fin cfg1.N) : (dat1 V c).after 4 t = lgOf (iblk1 V c 0 t) (hw2full V c) := by dsimp only [dat1]
theorem after1_5 (c : Dev nD) (t : Fin cfg1.N) :
    (dat1 V c).after 5 t = if t.val < 25 then cpTop (iblk1 V c 0 t) else cpBot (iblk1 V c 0 t) := by dsimp only [dat1]
theorem Phi_eq1 (c : Dev nD) (j : Fin (cfg1.N + 1)) : (dat1 V c).Φ j = Phi1 V c j.val := by dsimp only [dat1]

end Cert.KernelIdeal.Hand

end
-- ==== Proof.KI.R1Facts.lean ====
/-
  Region 1's schedule, decided over the 50 points of the grid: which phase a point is in, where its scratch rows start,
  at which points the output windows are written back, and where they are idle.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.R1Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Points 0..24 are phase 0 (the first conditional is taken there and only there). -/
theorem cond1_iff : ∀ t : Fin cfg1.N, k1_cond1 (cfg1.grid.coords t) = 1#1 ↔ t.val < 25 :=
  (by decide +kernel : ∀ t : Fin grid1.N, k1_cond1 (grid1.coords t) = 1#1 ↔ t.val < 25)
/-- Points 25..49 are phase 1. -/
theorem cond2_iff : ∀ t : Fin cfg1.N, k1_cond2 (cfg1.grid.coords t) = 1#1 ↔ 25 ≤ t.val :=
  (by decide +kernel : ∀ t : Fin grid1.N, k1_cond2 (grid1.coords t) = 1#1 ↔ 25 ≤ t.val)
/-- A phase-0 point t writes the scratch rows from 400 t. -/
theorem off1_eq : ∀ t : Fin cfg1.N, t.val < 25 → k1_off1 (cfg1.grid.coords t) = ![400 * t.val, 0] :=
  (by decide +kernel : ∀ t : Fin grid1.N, t.val < 25 → k1_off1 (grid1.coords t) = ![400 * t.val, 0])

/-- Output windows are never fetched. -/
theorem fetch1_3 : ∀ t : Fin cfg1.N, (cfg1.win 3).fetch t = false :=
  (by decide +kernel : ∀ t : Fin grid1.N, win1_3.fetch t = false)
theorem fetch1_4 : ∀ t : Fin cfg1.N, (cfg1.win 4).fetch t = false :=
  (by decide +kernel : ∀ t : Fin grid1.N, win1_4.fetch t = false)
theorem fetch1_5 : ∀ t : Fin cfg1.N, (cfg1.win 5).fetch t = false :=
  (by decide +kernel : ∀ t : Fin grid1.N, win1_5.fetch t = false)

/-- Window 3 (h1) is written back after points 0..23 (its block index moves on) and after the last point. -/
theorem flush1_3 : ∀ t : Fin cfg1.N, (cfg1.win 3).flush t = true ↔ (t.val < 24 ∨ t.val = 49) :=
  (by decide +kernel : ∀ t : Fin grid1.N, win1_3.flush t = true ↔ (t.val < 24 ∨ t.val = 49))
/-- Window 4 (the log-softmax) is written back after every phase-1 point. -/
theorem flush1_4 : ∀ t : Fin cfg1.N, (cfg1.win 4).flush t = true ↔ 25 ≤ t.val :=
  (by decide +kernel : ∀ t : Fin grid1.N, win1_4.flush t = true ↔ 25 ≤ t.val)

/-- Window 3 is idle exactly in phase 1, window 4 exactly in phase 0, window 5 never. -/
theorem idle1_3 : ∀ t : Fin cfg1.N, cfg1.idle 3 (cfg1.grid.coords t) = true ↔ 25 ≤ t.val :=
  (by decide +kernel : ∀ t : Fin grid1.N, idle1 3 (grid1.coords t) = true ↔ 25 ≤ t.val)
theorem idle1_4 : ∀ t : Fin cfg1.N, cfg1.idle 4 (cfg1.grid.coords t) = true ↔ t.val < 25 :=
  (by decide +kernel : ∀ t : Fin grid1.N, idle1 4 (grid1.coords t) = true ↔ t.val < 25)
theorem idle1_5 : ∀ t : Fin cfg1.N, cfg1.idle 5 (cfg1.grid.coords t) = false :=
  (by decide +kernel : ∀ t : Fin grid1.N, idle1 5 (grid1.coords t) = false)

/-- The block indices over the grid: the adj rows of point t are block t % 25; h1's block is t in phase 0 and 24 in
    phase 1; the log-softmax's is 0 in phase 0 and t - 25 in phase 1; the copy's is 2 (t % 25) + t / 25. -/
theorem index1_0 : ∀ t : Fin cfg1.N, (cfg1.win 0).index t = ![t.val % 25, 0] :=
  (by decide +kernel : ∀ t : Fin grid1.N, win1_0.index t = ![t.val % 25, 0])
theorem index1_1 : ∀ t : Fin cfg1.N, (cfg1.win 1).index t = ![0, 0] :=
  (by decide +kernel : ∀ t : Fin grid1.N, win1_1.index t = ![0, 0])
theorem index1_2 : ∀ t : Fin cfg1.N, (cfg1.win 2).index t = ![0, 0] :=
  (by decide +kernel : ∀ t : Fin grid1.N, win1_2.index t = ![0, 0])
theorem index1_3 : ∀ t : Fin cfg1.N, (cfg1.win 3).index t = ![if t.val < 25 then t.val else 24, 0] :=
  (by decide +kernel : ∀ t : Fin grid1.N, win1_3.index t = ![if t.val < 25 then t.val else 24, 0])
theorem index1_4 : ∀ t : Fin cfg1.N, (cfg1.win 4).index t = ![if t.val < 25 then 0 else t.val - 25, 0] :=
  (by decide +kernel : ∀ t : Fin grid1.N, win1_4.index t = ![if t.val < 25 then 0 else t.val - 25, 0])
theorem index1_5 : ∀ t : Fin cfg1.N, (cfg1.win 5).index t = ![2 * (t.val % 25) + t.val / 25, 0] :=
  (by decide +kernel : ∀ t : Fin grid1.N, win1_5.index t = ![2 * (t.val % 25) + t.val / 25, 0])

end Cert.KernelIdeal.Hand

end
-- ==== Proof.KI.R1Before.lean ====
/-
  Region 1: what each window's staging buffer holds when the body runs at a point.
  The three operands hold their blocks (fetched there or kept from the point before). Window 3 (h1) keeps, through all
  of phase 1, the rows point 24 stored: its block index does not move after point 24 and it is idle there, so the
  look-back through the idle points ends at point 24's stored contents.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.R1Data
import proofs.«107694_g18872086298805_cont_8to1_696_27_alg».proof.Proof.KI.R1Facts
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Between points 24 and 48 window 3 is not written back. -/
theorem flush1_3_mid (t' : Fin cfg1.N) (h1 : 24 ≤ t'.val) (h2 : t'.val < 49) : (cfg1.win 3).flush t' = false :=
  Bool.eq_false_iff.mpr fun h => by
    have h3 := (flush1_3 t').mp h
    omega

/-- In phase 1 window 3's buffer holds what the body left at the point before. -/
theorem before1_3_step (c : Dev nD) (t : Fin cfg1.N) (ht : 25 ≤ t.val) (d) :
    (dat1 V c).before 3 t d = (dat1 V c).left 3 ⟨t.val - 1, Nat.lt_of_le_of_lt (Nat.sub_le _ _) t.isLt⟩ d := by
  have hN : t.val < 50 := Nat.lt_of_lt_of_eq t.isLt N1_eq
  rw [(dat1 V c).before_of_pos 3 t (by omega) (fetch1_3 t),
    flush1_3_mid ⟨t.val - 1, Nat.lt_of_le_of_lt (Nat.sub_le _ _) t.isLt⟩ (by show 24 ≤ t.val - 1; omega) (by show t.val - 1 < 49; omega),
    if_neg Bool.false_ne_true]

/-- At a phase-1 point the body leaves window 3's buffer as it found it. -/
theorem left1_3_idle (c : Dev nD) (t' : Fin cfg1.N) (h : 25 ≤ t'.val) (d) :
    (dat1 V c).left 3 t' d = (dat1 V c).before 3 t' d := by
  unfold Dat.left
  rw [(idle1_3 t').mpr h]

/-- At point 24 the body leaves point 24's h1 rows in window 3's buffer. -/
theorem left1_3_24 (c : Dev nD) (t' : Fin cfg1.N) (h : t'.val = 24) (d) :
    (dat1 V c).left 3 t' d = h1Of (iblk1 V c 0 pt24) (iblk1 V c 1 pt24) := by
  have hi : cfg1.idle 3 (cfg1.grid.coords t') = false :=
    Bool.eq_false_iff.mpr fun hh => by have := (idle1_3 t').mp hh; omega
  have ht' : t' = pt24 := Fin.ext h
  subst ht'
  unfold Dat.left
  rw [hi]
  show (dat1 V c).kept 3 pt24 d = _
  unfold Dat.kept
  rw [Pipeline.fill_of_clip_none 3 _ (fun _ => rfl) d ((dat1 V c).after 3 pt24), Window.fill_cut, after1_3]
  have hp : h1pt pt24 = pt24 := by unfold h1pt; exact ite_self _
  rw [hp]

/-- In phase 1 window 3's buffer still holds point 24's h1 rows. -/
theorem before1_3_late (c : Dev nD) (t : Fin cfg1.N) (ht : 25 ≤ t.val) (d) :
    (dat1 V c).before 3 t d = h1Of (iblk1 V c 0 pt24) (iblk1 V c 1 pt24) := by
  obtain ⟨n, hn⟩ := t
  dsimp only at ht
  revert hn
  induction n, ht using Nat.le_induction with
  | base =>
    intro hn
    rw [before1_3_step V c ⟨25, hn⟩ (Nat.le_refl _) d]
    exact left1_3_24 V c _ rfl d
  | succ m hm ih =>
    intro hn
    rw [before1_3_step V c ⟨m + 1, hn⟩ (by show 25 ≤ m + 1; omega) d,
      left1_3_idle V c _ (by show 25 ≤ m + 1 - 1; omega) d]
    exact ih (Nat.lt_of_succ_lt hn)

end Cert.KernelIdeal.Hand

end
-- ==== Proof.KI.R1Body.lean ====
/-
  Region 1: the body's runs in its two phases, and the body obligation at every point.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import proofs.«107694_g18872086298805_cont_8to1_696_27_alg».proof.Proof.KI.R1Data
import proofs.«107694_g18872086298805_cont_8to1_696_27_alg».proof.Proof.KI.R1Facts
import proofs.«107694_g18872086298805_cont_8to1_696_27_alg».proof.Proof.KI.R1Before
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch across a phase-0 point -/

/-- How a phase-0 point changes the scratch: rows [o, o + 400) now hold the payload P, every other row is kept. -/
def ScrStep (o : ℕ) (P : Vec F S400x16 .bf16) (X X' : Vec F S10000x16 .bf16) : Prop :=
  (∀ (idx : S10000x16.Idx) (x : S400x16.Idx), (idx 0).val = o + (x 0).val → (idx 1).val = (x 1).val → X' idx = P x)
  ∧ (∀ idx : S10000x16.Idx, ((idx 0).val < o ∨ o + 400 ≤ (idx 0).val) → X' idx = X idx)

/-! ## The body's two runs -/

set_option maxHeartbeats 1000000 in
/-- Phase 0: the operands at x0, x1, x2, the scratch at X. The body stores the h1 rows and the top half of the adj block
    whole, leaves the log-softmax buffer alone, and overwrites rows [o, o + 400) of the scratch with h1 · W2. -/
theorem sound_kernel1A (c : Dev nD) (E : Set ℕ) (i : grid1.Coords) (h1 : k1_cond1 i = 1#1) (h2 : ¬ k1_cond2 i = 1#1)
    (o : ℕ) (hoff : k1_off1 i = ![o, 0])
    (arg2 : Memref sig .tc .vmem S400x10000 .f32) (harg2 : arg2.IsWhole) (arg3 : Memref sig .tc .vmem S10000x32 .bf16) (harg3 : arg3.IsWhole)
    (arg4 : Memref sig .tc .vmem S32x16 .f32) (harg4 : arg4.IsWhole) (arg5 : Memref sig .tc .vmem S400x32 .f32) (harg5 : arg5.IsWhole)
    (arg6 : Memref sig .tc .vmem S400x16 .f32) (harg6 : arg6.IsWhole) (arg7 : Memref sig .tc .vmem S200x10000 .f32) (harg7 : arg7.IsWhole)
    (arg8 : Memref sig .tc .vmem S10000x16 .bf16) (harg8 : arg8.IsWhole)
    (x0 : Vec F S400x10000 .f32) (x1 : Vec F S10000x32 .bf16) (x2 : Vec F S32x16 .f32) (d6 : Vec F S400x16 .f32)
    (X : Vec F S10000x16 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d6 ∗ (∃ d, owns (c : Thread nD τ) arg7 fullShare d)
        ∗ owns (c : Thread nD τ) arg8 fullShare X
        ∗ (iprop(owns (c : Thread nD τ) arg2 fullShare x0 ∗ owns (c : Thread nD τ) arg3 fullShare x1 ∗ owns (c : Thread nD τ) arg4 fullShare x2
            ∗ owns (c : Thread nD τ) arg5 fullShare (h1Of x0 x1) ∗ owns (c : Thread nD τ) arg6 fullShare d6
            ∗ owns (c : Thread nD τ) arg7 fullShare (cpTop x0)
            ∗ (∃ X', ⌜ScrStep o (hw2Of x0 x1 x2) X X'⌝ ∗ owns (c : Thread nD τ) arg8 fullShare X')) -∗ K ⟨⟩))
      ⊢ wp frame (wpE (defs₀ (F := F)) Variants.none c none) E (cc1__fused_kernel i arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%d5, %f5, -, H5⟩, ⟨%f6, %hf6, H6⟩, ⟨%d7, %f7, -, H7⟩, ⟨%f8, %hf8, H8⟩, Hk⟩
  subst hf0; subst hf1; subst hf2; subst hf6; subst hf8
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (coverH1 _)
  isplitl [H6]
  · iexists f6; isplitr; · ipureintro; rfl
    iexact H6
  isplitl [H7]
  · iexists _; isplitr
    swap; · iexact H7
    ipureintro
    exact View.read_writes_eq_canon _ _ _ (coverCp _)
  iexists _; isplitr
  swap
  · iexists _; isplitr
    swap; · iexact H8
    ipureintro; rfl
  ipureintro
  refine ⟨fun idx x hx0 hx1 => ?_, fun idx hidx => ?_⟩
  · exact View.read_writes_cons_unit_of_mem _ _ _ _ _ idx x hoff
      (Fin.forall_fin_two.mpr ⟨hx0, by rw [hx1]; exact (Nat.zero_add _).symm⟩)
  · exact View.read_writes_cons_unit_of_not_mem _ _ _ _ _ idx hoff (0 : Fin 2) hidx

set_option maxHeartbeats 1000000 in
/-- Phase 1: the adj block at x0, the scratch at X. The body stores the log-softmax rows and the bottom half of the adj
    block whole, and leaves the h1 buffer, the other operands and the scratch alone. -/
theorem sound_kernel1B (c : Dev nD) (E : Set ℕ) (i : grid1.Coords) (h1 : ¬ k1_cond1 i = 1#1) (h2 : k1_cond2 i = 1#1)
    (arg2 : Memref sig .tc .vmem S400x10000 .f32) (harg2 : arg2.IsWhole) (arg3 : Memref sig .tc .vmem S10000x32 .bf16) (harg3 : arg3.IsWhole)
    (arg4 : Memref sig .tc .vmem S32x16 .f32) (harg4 : arg4.IsWhole) (arg5 : Memref sig .tc .vmem S400x32 .f32) (harg5 : arg5.IsWhole)
    (arg6 : Memref sig .tc .vmem S400x16 .f32) (harg6 : arg6.IsWhole) (arg7 : Memref sig .tc .vmem S200x10000 .f32) (harg7 : arg7.IsWhole)
    (arg8 : Memref sig .tc .vmem S10000x16 .bf16) (harg8 : arg8.IsWhole)
    (x0 : Vec F S400x10000 .f32) (x1 : Vec F S10000x32 .bf16) (x2 : Vec F S32x16 .f32) (d5 : Vec F S400x32 .f32)
    (X : Vec F S10000x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ (∃ d, owns (c : Thread nD τ) arg6 fullShare d) ∗ (∃ d, owns (c : Thread nD τ) arg7 fullShare d)
        ∗ owns (c : Thread nD τ) arg8 fullShare X
        ∗ (iprop(owns (c : Thread nD τ) arg2 fullShare x0 ∗ owns (c : Thread nD τ) arg3 fullShare x1 ∗ owns (c : Thread nD τ) arg4 fullShare x2
            ∗ owns (c : Thread nD τ) arg5 fullShare d5 ∗ owns (c : Thread nD τ) arg6 fullShare (lgOf x0 X)
            ∗ owns (c : Thread nD τ) arg7 fullShare (cpBot x0)
            ∗ owns (c : Thread nD τ) arg8 fullShare X) -∗ K ⟨⟩))
      ⊢ wp frame (wpE (defs₀ (F := F)) Variants.none c none) E (cc1__fused_kernel i arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f5, %hf5, H5⟩, ⟨%d6, %f6, -, H6⟩, ⟨%d7, %f7, -, H7⟩, ⟨%f8, %hf8, H8⟩, Hk⟩
  subst hf0; subst hf1; subst hf2; subst hf5; subst hf8
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists _; isplitr
    swap; · iexact H6
    ipureintro
    exact View.read_writes_eq_canon _ _ _ (coverLg _)
  isplitl [H7]
  · iexists _; isplitr
    swap; · iexact H7
    ipureintro
    exact View.read_writes_eq_canon _ _ _ (coverCp _)
  iexists f8; isplitr; · ipureintro; rfl
  iexact H8

/-! ## The scratch invariant across a point -/

/-- A phase-0 point t takes the scratch from agreeing with hw2full on rows below 400 t to agreeing on rows below 400 (t + 1):
    a row below 400 t is kept, a row in [400 t, 400 t + 400) now holds point t's h1 · W2 row. -/
theorem scrOk_step (c : Dev nD) (t : Fin cfg1.N) (X X' : Vec F S10000x16 .bf16) (hX : ScrOk V c t.val X)
    (hX' : ScrStep (400 * t.val) (hw2Of (iblk1 V c 0 t) (iblk1 V c 1 t) (iblk1 V c 2 t)) X X') :
    ScrOk V c (t.val + 1) X' := by
  intro idx hidx
  by_cases hlt : (idx 0).val < 400 * t.val
  · rw [hX'.2 idx (Or.inl hlt)]; exact hX idx hlt
  · have hpt : rowPt idx = t := by
      apply Fin.ext
      show (idx 0).val / 400 = t.val
      omega
    have h0 : (idx 0).val = 400 * t.val + (rowLoc idx 0).val := by
      show (idx 0).val = 400 * t.val + (idx 0).val % 400
      omega
    have h1 : (idx 1).val = (rowLoc idx 1).val := rfl
    rw [hX'.1 idx (rowLoc idx) h0 h1]
    unfold hw2full
    rw [hpt]

/-- From point 25 on every row of the scratch has been written. -/
theorem scrOk_full (c : Dev nD) (j : ℕ) (hj : 25 ≤ j) (X : Vec F S10000x16 .bf16) (hX : ScrOk V c j X) : X = hw2full V c := by
  funext idx
  have := (idx 0).isLt
  have h : (idx 0).val < 10000 := this
  exact hX idx (by omega)

/-! ## What the obligation asks of a window's buffer, by the window's state at the point -/

theorem leaves1_live (c : Dev nD) (w : Fin cfg1.W) (t : Fin cfg1.N) (hi : cfg1.idle w (cfg1.grid.coords t) = false) :
    (dat1 V c).leavesExact w t = owns (c : Thread nD τ) ((cfg1.win w).stage (cfg1.slots t w)) fullShare ((dat1 V c).after w t) := by
  unfold Dat.leavesExact; rw [hi]

theorem leaves1_flush (c : Dev nD) (w : Fin cfg1.W) (t : Fin cfg1.N) (hi : cfg1.idle w (cfg1.grid.coords t) = true)
    (hf : (cfg1.win w).flush t = true) :
    (dat1 V c).leavesExact w t = owns (c : Thread nD τ) ((cfg1.win w).stage (cfg1.slots t w)) fullShare ((dat1 V c).after w t) := by
  unfold Dat.leavesExact; rw [hi, hf]

theorem bool_false_of_not {b : Bool} {p : Prop} (h : b = true ↔ p) (hp : ¬ p) : b = false := by
  cases b with
  | false => rfl
  | true => exact absurd (h.mp rfl) hp

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    leaves1_live V c 0 t rfl, leaves1_live V c 1 t rfl, leaves1_live V c 2 t rfl, leaves1_live V c 5 t (idle1_5 t),
    after1_0, after1_1, after1_2, after1_5, Phi_eq1, Phi_eq1]
  by_cases ht : t.val < 25
  · -- phase 0
    have hc1 : k1_cond1 (grid1.coords t) = 1#1 := (cond1_iff t).mpr ht
    have hc2 : ¬ k1_cond2 (grid1.coords t) = 1#1 := fun h => by have := (cond2_iff t).mp h; omega
    have hi3 : cfg1.idle 3 (cfg1.grid.coords t) = false := bool_false_of_not (idle1_3 t) (by omega)
    have hi4 : cfg1.idle 4 (cfg1.grid.coords t) = true := (idle1_4 t).mpr ht
    have hf4 : (cfg1.win 4).flush t = false := bool_false_of_not (flush1_4 t) (by omega)
    have hh : h1pt t = t := if_pos ht
    rw [leaves1_live V c 3 t hi3, (dat1 V c).leavesExact_idle 4 t hi4 hf4, after1_3, if_pos ht, hh]
    unfold Phi1
    iintro ⟨⟨Hr, Hs0, Hs1, Hs2, %X, %hX, H8⟩, Ho, ⟨%d0, H0⟩, ⟨%d1, H1⟩, ⟨%d2, H2⟩, ⟨%d3, H3⟩, ⟨%d4, H4⟩, ⟨%d5, H5⟩⟩
    iapply (sound_kernel1A c Set.univ (grid1.coords t) hc1 hc2 (400 * t.val) (off1_eq t ht) _ _ _ _ _ _ _ _ _ _ _ _ _ _
      (iblk1 V c 0 t) (iblk1 V c 1 t) (iblk1 V c 2 t) ((dat1 V c).before 4 t d4) X _)
    isplitl [H0]; · iexact H0
    isplitl [H1]; · iexact H1
    isplitl [H2]; · iexact H2
    isplitl [H3]; · iexists _; iexact H3
    isplitl [H4]; · iexact H4
    isplitl [H5]; · iexists _; iexact H5
    isplitl [H8]; · iexact H8
    iintro ⟨H0, H1, H2, H3, H4, H5, %X', %hX', H8⟩
    isplitl [Hr Hs0 Hs1 Hs2 H8]
    · isplitl [Hr]; · iexact Hr
      isplitl [Hs0]; · iexact Hs0
      isplitl [Hs1]; · iexact Hs1
      isplitl [Hs2]; · iexact Hs2
      iexists X'; isplitr
      · ipureintro; exact scrOk_step V c t X X' hX hX'
      iexact H8
    isplitl [Ho]; · iexact Ho
    isplitl [H0]; · iexact H0
    isplitl [H1]; · iexact H1
    isplitl [H2]; · iexact H2
    isplitl [H3]; · iexact H3
    isplitl [H4]; · iexists d4; iexact H4
    iexact H5
  · -- phase 1
    have ht' : 25 ≤ t.val := by omega
    have hc1 : ¬ k1_cond1 (grid1.coords t) = 1#1 := fun h => by have := (cond1_iff t).mp h; omega
    have hc2 : k1_cond2 (grid1.coords t) = 1#1 := (cond2_iff t).mpr ht'
    have hi3 : cfg1.idle 3 (cfg1.grid.coords t) = true := (idle1_3 t).mpr ht'
    have hi4 : cfg1.idle 4 (cfg1.grid.coords t) = false := bool_false_of_not (idle1_4 t) ht
    -- window 3 is idle: it keeps point 24's rows, which is what the obligation asks for whether or not it is written back
    have h3 : ∀ d3, owns (c : Thread nD τ) (st1_3 t) fullShare ((dat1 V c).before 3 t d3) ⊢ (dat1 V c).leavesExact 3 t := by
      intro d3
      by_cases h49 : t.val = 49
      · have hh : h1pt t = pt24 := if_neg ht
        rw [leaves1_flush V c 3 t hi3 ((flush1_3 t).mpr (Or.inr h49)), after1_3, before1_3_late V c t ht' d3, hh]
      · have hf3 : (cfg1.win 3).flush t = false := bool_false_of_not (flush1_3 t) (by omega)
        rw [(dat1 V c).leavesExact_idle 3 t hi3 hf3]
        iintro H; iexists d3; iexact H
    rw [leaves1_live V c 4 t hi4, after1_4, if_neg ht]
    unfold Phi1
    iintro ⟨⟨Hr, Hs0, Hs1, Hs2, %X, %hX, H8⟩, Ho, ⟨%d0, H0⟩, ⟨%d1, H1⟩, ⟨%d2, H2⟩, ⟨%d3, H3⟩, ⟨%d4, H4⟩, ⟨%d5, H5⟩⟩
    have hfull : X = hw2full V c := scrOk_full V c t.val ht' X hX
    subst hfull
    iapply (sound_kernel1B c Set.univ (grid1.coords t) hc1 hc2 _ _ _ _ _ _ _ _ _ _ _ _ _ _
      (iblk1 V c 0 t) (iblk1 V c 1 t) (iblk1 V c 2 t) ((dat1 V c).before 3 t d3) (hw2full V c) _)
    isplitl [H0]; · iexact H0
    isplitl [H1]; · iexact H1
    isplitl [H2]; · iexact H2
    isplitl [H3]; · iexact H3
    isplitl [H4]; · iexists _; iexact H4
    isplitl [H5]; · iexists _; iexact H5
    isplitl [H8]; · iexact H8
    iintro ⟨H0, H1, H2, H3, H4, H5, H8⟩
    isplitl [Hr Hs0 Hs1 Hs2 H8]
    · isplitl [Hr]; · iexact Hr
      isplitl [Hs0]; · iexact Hs0
      isplitl [Hs1]; · iexact Hs1
      isplitl [Hs2]; · iexact Hs2
      iexists (hw2full V c); isplitr
      · ipureintro; exact fun idx _ => rfl
      iexact H8
    isplitl [Ho]; · iexact Ho
    isplitl [H0]; · iexact H0
    isplitl [H1]; · iexact H1
    isplitl [H2]; · iexact H2
    isplitl [H3]; · iapply (h3 d3); iexact H3
    isplitl [H4]; · iexact H4
    iexact H5

/-- The library's body obligation for region 1, at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The kernel's program as a whole: @main is the two regions in order. This module threads the buffers' contents through
  them — the launch memory, then region 0's result array at what its write-back leaves, then region 1's three result
  arrays at what theirs leave — gives every region its proof data at its entry contents, states each region as a segment of
  @main between thread states "every unscoped buffer at the boundary's contents, the generator register at some state,
  nothing owed", and launches. The run's post names every result array by what the write-backs fold to, and has every
  argument array as launched. Any float family.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.R0
import proofs.«107694_g18872086298805_cont_8to1_696_27_alg».proof.Proof.KI.R1Data
import proofs.«107694_g18872086298805_cont_8to1_696_27_alg».proof.Proof.KI.R1Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 1's entry contents. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What region 1 finds in the arrays it reads, and the arguments at the end -/

/-- Region 1 finds S1's array at what region 0's write-back left. -/
theorem V1_main_v0 (c : Dev nD) : V1 m ρ c main_v0 = (dat0 (V0 m ρ) c).arrAt 2 cfg0.N := W1_arr m ρ c 2
/-- and adj and W2 as launched (region 0 does not stage them). -/
theorem V1_main_arg1 (c : Dev nD) : V1 m ρ c main_arg1 = m ((c : Thread nD τ).loc main_arg1) :=
  W1_of_ne m ρ c main_arg1 (by decide)
theorem V1_main_arg3 (c : Dev nD) : V1 m ρ c main_arg3 = m ((c : Thread nD τ).loc main_arg3) :=
  W1_of_ne m ρ c main_arg3 (by decide)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := V1_main_arg1 m ρ c
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 2).trans (((dat1 (V1 m ρ) c).arrAt_in 2 rfl _).trans (A_eq1 (V1 m ρ) c 2))
    _ = m ((c : Thread nD τ).loc main_arg3) := V1_main_arg3 m ρ c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The scratch enters region 1's invariant at whatever it holds (no row of it is claimed yet), beside the other call's
    staging buffers and the generator register. -/
theorem phi1_in (c : Dev nD) :
    iprop((∃ r, prngReg c r) ∗ Pipeline.scopedRest (Ix := Unit) (Name := ℕ) (U := UR sig nD τ) (Lvl := ℕ) (Val := Elt F) spec1 c)
      ⊢ (Phi1 (V1 m ρ) c 0 : sProp 𝕄) := by
  rw [scopedRest1_eq]; unfold Phi1
  simp only [owns_whole]
  iintro ⟨Hp, Ha, Hb, Hc, ⟨%f, Hs⟩⟩
  isplitl [Hp]; · iexact Hp
  isplitl [Ha]; · iexact Ha
  isplitl [Hb]; · iexact Hb
  isplitl [Hc]; · iexact Hc
  iexists f
  isplitr
  · ipureintro; intro idx h; exact absurd h (by omega)
  iexact Hs

/-- and leaves it at whatever it then holds. -/
theorem phi1_out (c : Dev nD) (j : ℕ) :
    (Phi1 (V1 m ρ) c j : sProp 𝕄)
      ⊢ iprop((∃ r, prngReg c r) ∗ Pipeline.scopedRest (Ix := Unit) (Name := ℕ) (U := UR sig nD τ) (Lvl := ℕ) (Val := Elt F) spec1 c) := by
  rw [scopedRest1_eq]; unfold Phi1
  simp only [owns_whole]
  iintro ⟨Hp, Ha, Hb, Hc, ⟨%X, -, Hs⟩⟩
  isplitl [Hp]; · iexact Hp
  isplitl [Ha]; · iexact Ha
  isplitl [Hb]; · iexact Hb
  isplitl [Hc]; · iexact Hc
  iexists X; iexact Hs

set_option backward.isDefEq.respectTransparency.types false in
/-- Region 1 over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V1 m ρ) c 0 from rfl]
    iintro ⟨Hp, -, Hr⟩
    iapply (phi1_in m ρ c)
    isplitl [Hp]; · iexact Hp
    iexact Hr
  hout c := by
    rw [Pipeline.ownSems0_none, show (pdats m ρ 1 c).Φ (Fin.last _) = Phi1 (V1 m ρ) c (Fin.last cfg1.N).val from rfl]
    iintro H
    ihave H' := (phi1_out m ρ c _) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state each result array holds what its region's write-backs fold to and each argument array is as launched. -/
theorem run_main : θ_run defs (onTc (τ := τ) (main (F := F))) ⟨m, fun _ => 0, ρ⟩ (fun r => ∀ c : Dev nD,
      r.2.mem ((c.tc : Thread nD τ).loc main_v1_1) = (dat1 (V1 m ρ) c).arrAt 4 cfg1.N
      ∧ r.2.mem ((c.tc : Thread nD τ).loc main_v1_0) = (dat1 (V1 m ρ) c).arrAt 3 cfg1.N
      ∧ r.2.mem ((c.tc : Thread nD τ).loc main_v1_2) = (dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1_1 (by decide))).trans (W2_arr m ρ c 4),
       (h c _ (mem_uc main_v1_0 (by decide))).trans (W2_arr m ρ c 3),
       (h c _ (mem_uc main_v1_2 (by decide))).trans (W2_arr m ρ c 5),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2.2) (run_main m ρ)

end Cert.KernelIdeal.Hand

end
-- ==== Proof.KI.ValS1.lean ====
/-
  The value of region 0: after its one point the result array holds the payload of the two operand arrays, and at the
  ideal instance that payload is the matrix product x · W1, entry by entry the sum the reference's first dot_general is.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.R0
import proofs.«107694_g18872086298805_cont_8to1_696_27_alg».proof.Proof.KI.R1Data
import proofs.«107694_g18872086298805_cont_8to1_696_27_alg».proof.Proof.KI.R1Facts
import proofs.«107694_g18872086298805_cont_8to1_696_27_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The payload without its whole-buffer reads -/

/-- The zero offsets of a whole-buffer rectangle, as the constant function. -/
theorem hzS1 : (![0, 0] : Fin 2 → Nat) = fun _ => 0 := funext fun a => by fin_cases a <;> rfl

/-- Loading both operands whole and storing the result whole leaves exactly the body's arithmetic of the two operands. -/
theorem s1Of_eq_pay (x0 : Vec F S10000x128 .f32) (x1 : Vec F S128x32 .f32) : s1Of x0 x1 = k0_pay1 x0 x1 := by
  unfold s1Of
  rw [View.canon_unit_zero hzS1, View.ld_unit_zero (S := S10000x128) hzS1, View.ld_unit_zero (S := S128x32) hzS1]

/-! ## The blocks of region 0 are the whole arrays -/

section Blocks

variable (V : (c : Dev nD) → (b : Ref sig .tc) → Buf (Elt F) ((c : Thread nD τ).loc b))

/-- The first operand's block at the one point is the whole array x. -/
theorem iblk0_0_eq (c : Dev nD) (t : Fin cfg0.N) : iblk0 V c 0 t = V c main_arg0 := by
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; show 0 * 10000 + 1 * (y 0).val = (y 0).val; omega
  | ⟨1, _⟩ => show win0_0.index t (1 : Fin 2) * 128 + 1 * (y 1).val = (y 1).val; show 0 * 128 + 1 * (y 1).val = (y 1).val; omega

/-- The second operand's block at the one point is the whole array W1. -/
theorem iblk0_1_eq (c : Dev nD) (t : Fin cfg0.N) : iblk0 V c 1 t = V c main_arg2 := by
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; show 0 * 128 + 1 * (y 0).val = (y 0).val; omega
  | ⟨1, _⟩ => show win0_1.index t (1 : Fin 2) * 32 + 1 * (y 1).val = (y 1).val; show 0 * 32 + 1 * (y 1).val = (y 1).val; omega

/-- Reading a whole array G back through the result window's block at the one point gives G. -/
theorem read_blk0_2 (G : S10000x32.Idx → Elt F .bf16) (t : Fin cfg0.N) (y : S10000x32.Idx) :
    ((cfg0.win 2).blk t).view.read (Elt F) G y = G y := by
  show G (((cfg0.win 2).blk t).view.emb y) = G y
  refine congrArg G (funext fun a => Fin.ext ?_)
  match a with
  | ⟨0, _⟩ => show win0_2.index t (0 : Fin 2) * 10000 + 1 * (y 0).val = (y 0).val; show 0 * 10000 + 1 * (y 0).val = (y 0).val; omega
  | ⟨1, _⟩ => show win0_2.index t (1 : Fin 2) * 32 + 1 * (y 1).val = (y 1).val; show 0 * 32 + 1 * (y 1).val = (y 1).val; omega

/-- Every index of the result array is in the one block. -/
theorem mem_blk0_2 (t : Fin cfg0.N) (i : S10000x32.Idx) : i ∈ ((cfg0.win 2).blk t).view.set := by
  show i ∈ ((View.whole main_v0).slice (win0_2.rect t)).set
  rw [View.set_slice_whole, Rect.mem_set_unit]
  intro a
  match a with
  | ⟨0, _⟩ => show 0 * 10000 ≤ (i 0).val ∧ (i 0).val < 0 * 10000 + 10000; have h : (i 0).val < 10000 := (i 0).isLt; omega
  | ⟨1, _⟩ => show 0 * 32 ≤ (i 1).val ∧ (i 1).val < 0 * 32 + 32; have h : (i 1).val < 32 := (i 1).isLt; omega

/-- What the one point writes back is the block of s1Of of the two whole arrays. -/
theorem flushed0_2_eq (c : Dev nD) (t : Fin cfg0.N) :
    (dat0 V c).flushed 2 t = ((cfg0.win 2).blk t).view.read (Elt F) (s1Of (V c main_arg0) (V c main_arg2)) := by
  show (cfg0.win 2).cut (grid0.coords t) ((dat0 V c).after 2 t) = _
  rw [after0_2, iblk0_0_eq, iblk0_1_eq]
  funext y
  exact (read_blk0_2 (s1Of (V c main_arg0) (V c main_arg2)) t y).symm

end Blocks

/-! ## The result array after region 0 -/

/-- After region 0 its result array holds `s1Of` of the two operand arrays as the region found them (any float family). -/
theorem arr_s1 (V : (c : Dev nD) → (b : Ref sig .tc) → Buf (Elt F) ((c : Thread nD τ).loc b)) (c : Dev nD) :
    (dat0 V c).arrAt 2 cfg0.N = s1Of (V c main_arg0) (V c main_arg2) :=
  (dat0 V c).arrAt_eq_of_cover 2 (s1Of (V c main_arg0) (V c main_arg2)) (fun t _ => flushed0_2_eq V c t)
    (fun i => ⟨t0_0, flush0_2 t0_0, mem_blk0_2 t0_0 i⟩)

/-! ## The payload at the ideal instance, entry by entry -/

/-- The left operand's row coordinate under the product is the result's row. -/
theorem lhs_s1_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- The left operand's column coordinate is the summation index. -/
theorem lhs_s1_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
/-- The right operand's row coordinate is the summation index. -/
theorem rhs_s1_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
/-- The right operand's column coordinate is the result's column. -/
theorem rhs_s1_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- At the ideal instance the body's arithmetic at entry (r, c) is the sum over k of x (r, k) · W1 (k, c): the rounding
    to bf16 is the identity and the product into the zero accumulator is the plain sum. -/
theorem pay1_ideal_apply (x : Vec Ideal S10000x128 .f32) (w1 : Vec Ideal S128x32 .f32) (i : S10000x32.Idx) :
    (k0_pay1 (F := Ideal) x w1 i : EReal)
      = ∑ k : Fin 128, x (Cert.ReferenceIdeal.ReadP.lidx_main_v0 i k) * w1 (Cert.ReferenceIdeal.ReadP.ridx_main_v0 i k) := by
  show FloatOps.matmul (F := Ideal) (φ₁ := .f32) (φ₂ := .f32) dot_S10000x128_S128x32_S10000x32_1_0_0_1_n_n none x w1 (constant (F := Ideal) S10000x32 .f32 0x00000000#32) i = _
  rw [Ideal.matmul_constant_zero_apply, ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx i ((ValueIdx.contrEquiv1 dot_S10000x128_S128x32_S10000x32_1_0_0_1_n_n 128 rfl rfl).symm k) = Cert.ReferenceIdeal.ReadP.lidx_main_v0 i k := funext fun a => Fin.ext (by
    match a with
    | ⟨0, _⟩ => exact lhs_s1_0 _ _
    | ⟨1, _⟩ => exact (lhs_s1_1 _ _).trans hk)
  have er : dot_S10000x128_S128x32_S10000x32_1_0_0_1_n_n.rhsIdx i ((ValueIdx.contrEquiv1 dot_S10000x128_S128x32_S10000x32_1_0_0_1_n_n 128 rfl rfl).symm k) = Cert.ReferenceIdeal.ReadP.ridx_main_v0 i k := funext fun a => Fin.ext (by
    match a with
    | ⟨0, _⟩ => exact (rhs_s1_0 _ _).trans hk
    | ⟨1, _⟩ => exact rhs_s1_1 _ _)
  rw [el, er]

/-- At the ideal instance the stored payload is the reference's first stage: x · W1 (the rounding to bf16 is the identity,
    and the matrix unit's product into a zero accumulator is the plain sum). -/
theorem s1Of_ideal (x : Vec Ideal S10000x128 .f32) (w1 : Vec Ideal S128x32 .f32) :
    (s1Of (F := Ideal) x w1 : S10000x32.Idx → EReal) = Cert.ReferenceIdeal.ReadP.val_main_v0 (F := Ideal) x w1 := by
  funext i
  rw [s1Of_eq_pay, Cert.ReferenceIdeal.ReadP.val_main_v0_apply]
  exact pay1_ideal_apply x w1 i

end Cert.KernelIdeal.Hand

end
-- ==== Proof.KI.ValCopy.lean ====
/-
  The third result: the copy of adj. Point t = (phase, step) writes rows [200 (2 step + phase), …+200) of the result with
  the top (phase 0) or bottom (phase 1) half of adj's rows [400 step, 400 step + 400): every block written is that block of
  adj itself, and the 50 blocks cover the array.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.R0
import proofs.«107694_g18872086298805_cont_8to1_696_27_alg».proof.Proof.KI.R1Data
import proofs.«107694_g18872086298805_cont_8to1_696_27_alg».proof.Proof.KI.R1Facts
import proofs.«107694_g18872086298805_cont_8to1_696_27_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The offsets of a whole-buffer access are zero on both axes. -/
theorem cp_zero_offsets : (![0, 0] : Fin 2 → Nat) = fun _ => 0 := funext fun a => by fin_cases a <;> rfl

/-- The top half of a block of 400 rows, entry by entry. -/
theorem cpTop_apply (a : Vec F S400x10000 .f32) (p : Fin 200) (q : Fin 10000) :
    cpTop a (ix2 p q) = a (ix2 ⟨p.val, by omega⟩ q) := by
  unfold cpTop
  rw [View.canon_unit_zero cp_zero_offsets]
  show a (qAtop.emb (ix2 p q)) = _
  congr 1
  funext d
  apply Fin.ext
  match d with
  | ⟨0, _⟩ => show 0 + 1 * p.val = p.val; omega
  | ⟨1, _⟩ => show 0 + 1 * q.val = q.val; omega

/-- The bottom half of a block of 400 rows, entry by entry. -/
theorem cpBot_apply (a : Vec F S400x10000 .f32) (p : Fin 200) (q : Fin 10000) :
    cpBot a (ix2 p q) = a (ix2 ⟨200 + p.val, by omega⟩ q) := by
  unfold cpBot
  rw [View.canon_unit_zero cp_zero_offsets]
  show a (qAbot.emb (ix2 p q)) = _
  congr 1
  funext d
  apply Fin.ext
  match d with
  | ⟨0, _⟩ => show 200 + 1 * p.val = 200 + p.val; omega
  | ⟨1, _⟩ => show 0 + 1 * q.val = q.val; omega

/-- What point t writes back is its block of adj. Entry (p, q) of the written block is entry (p, q) of the top half of
    the adj block of 400 rows at block index t % 25 when t < 25, of the bottom half otherwise: row
    400 (t % 25) + p (+ 200) of adj. The block written sits at rows from 200 (2 (t % 25) + t / 25), and t / 25 is 0
    below 25 and 1 from 25 on, so the two rows are the same. -/
theorem cp_written (V : (c : Dev nD) → (b : Ref sig .tc) → Buf (Elt F) ((c : Thread nD τ).loc b)) (c : Dev nD) (t : Fin cfg1.N) :
    (dat1 V c).flushed 5 t = ((cfg1.win 5).blk t).view.read (Elt F) (V c main_arg1) := by
  show (cfg1.win 5).cut (cfg1.grid.coords t) ((dat1 V c).after 5 t) = _
  rw [after1_5]
  funext y
  obtain ⟨p, q, rfl⟩ : ∃ (p : Fin 200) (q : Fin 10000), y = ix2 p q := ⟨y 0, y 1, eq_ix2 y⟩
  have ht : t.val < 50 := lt_of_lt_of_eq t.isLt N1_eq
  have e0 : (cfg1.win 0).index t 0 = t.val % 25 := congrFun (index1_0 t) 0
  have e0' : (cfg1.win 0).index t 1 = 0 := congrFun (index1_0 t) 1
  have e5 : (cfg1.win 5).index t 0 = 2 * (t.val % 25) + t.val / 25 := congrFun (index1_5 t) 0
  have e5' : (cfg1.win 5).index t 1 = 0 := congrFun (index1_5 t) 1
  show (if t.val < 25 then cpTop (iblk1 V c 0 t) else cpBot (iblk1 V c 0 t)) (ix2 p q)
    = V c main_arg1 (((cfg1.win 5).blk t).view.emb (ix2 p q))
  by_cases h : t.val < 25
  · rw [if_pos h, cpTop_apply]
    show V c main_arg1 (((cfg1.win 0).blk t).view.emb (ix2 ⟨p.val, by omega⟩ q)) = _
    congr 1
    funext d
    apply Fin.ext
    match d with
    | ⟨0, _⟩ =>
      show (cfg1.win 0).index t 0 * 400 + 1 * p.val = (cfg1.win 5).index t 0 * 200 + 1 * p.val
      rw [e0, e5]; omega
    | ⟨1, _⟩ =>
      show (cfg1.win 0).index t 1 * 10000 + 1 * q.val = (cfg1.win 5).index t 1 * 10000 + 1 * q.val
      rw [e0', e5']
  · rw [if_neg h, cpBot_apply]
    show V c main_arg1 (((cfg1.win 0).blk t).view.emb (ix2 ⟨200 + p.val, by omega⟩ q)) = _
    congr 1
    funext d
    apply Fin.ext
    match d with
    | ⟨0, _⟩ =>
      show (cfg1.win 0).index t 0 * 400 + 1 * (200 + p.val) = (cfg1.win 5).index t 0 * 200 + 1 * p.val
      rw [e0, e5]; omega
    | ⟨1, _⟩ =>
      show (cfg1.win 0).index t 1 * 10000 + 1 * q.val = (cfg1.win 5).index t 1 * 10000 + 1 * q.val
      rw [e0', e5']

/-- An entry of the array lies in point t's block of the copy exactly when each coordinate is in the block's range. -/
theorem mem_cp_block (t : Fin cfg1.N) (i : S10000x10000.Idx) :
    i ∈ ((cfg1.win 5).blk t).view.set ↔ ∀ a : Fin 2, (cfg1.win 5).index t a * S200x10000.size a ≤ (i a).val
      ∧ (i a).val < (cfg1.win 5).index t a * S200x10000.size a + S200x10000.size a := by
  show i ∈ ((View.whole main_v1_2).slice (win1_5.rect t)).set ↔ _
  rw [View.set_slice_whole, Rect.mem_set_unit]
  exact Iff.rfl

/-- Every entry is in some point's block: row r lies in block r / 200 = 2 step + phase, the block of point
    25 phase + step. -/
theorem cp_blocks_cover (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  have hn : (i 0).val / 200 / 2 + 25 * ((i 0).val / 200 % 2) < 50 := by omega
  have e5 : (cfg1.win 5).index (pt _ hn) 0
      = 2 * (((i 0).val / 200 / 2 + 25 * ((i 0).val / 200 % 2)) % 25) + ((i 0).val / 200 / 2 + 25 * ((i 0).val / 200 % 2)) / 25 :=
    congrFun (index1_5 (pt _ hn)) 0
  have e5' : (cfg1.win 5).index (pt _ hn) 1 = 0 := congrFun (index1_5 (pt _ hn)) 1
  refine ⟨pt _ hn, flush1_5 _, ?_⟩
  rw [mem_cp_block]
  intro a
  match a with
  | ⟨0, _⟩ =>
    show (cfg1.win 5).index (pt _ hn) 0 * 200 ≤ (i 0).val ∧ (i 0).val < (cfg1.win 5).index (pt _ hn) 0 * 200 + 200
    rw [e5]; omega
  | ⟨1, _⟩ =>
    show (cfg1.win 5).index (pt _ hn) 1 * 10000 ≤ (i 1).val ∧ (i 1).val < (cfg1.win 5).index (pt _ hn) 1 * 10000 + 10000
    rw [e5']; omega

/-- After region 1 the copy's array holds adj as the region found it (any float family). -/
theorem arr_cp (V : (c : Dev nD) → (b : Ref sig .tc) → Buf (Elt F) ((c : Thread nD τ).loc b)) (c : Dev nD) :
    (dat1 V c).arrAt 5 cfg1.N = V c main_arg1 := by
  exact (dat1 V c).arrAt_eq_of_cover 5 (V c main_arg1) (fun t _ => cp_written V c t) cp_blocks_cover

end Cert.KernelIdeal.Hand

end
-- ==== Proof.KI.ValH1.lean ====
/-
  The second result, h1 = relu(adj · S1), at the ideal instance. A phase-0 point's stored rows are, entry by entry, the
  reference's third stage at the corresponding rows; the blocks written back (points 0..23, and point 24's rows after the
  last point) cover the array.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.R0
import proofs.«107694_g18872086298805_cont_8to1_696_27_alg».proof.Proof.KI.R1Data
import proofs.«107694_g18872086298805_cont_8to1_696_27_alg».proof.Proof.KI.R1Facts
import proofs.«107694_g18872086298805_cont_8to1_696_27_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

namespace H1

/-- The adj operand's index of an h1 entry at contraction position k. -/
abbrev adjIdx (y : S400x32.Idx) (k : Fin 10000) : S400x10000.Idx := fun a => match a with
  | ⟨0, _⟩ => ⟨(y 0).val, (y 0).isLt⟩
  | ⟨1, _⟩ => ⟨k.val, k.isLt⟩
abbrev s1Idx (y : S400x32.Idx) (k : Fin 10000) : S10000x32.Idx := fun a => match a with
  | ⟨0, _⟩ => ⟨k.val, k.isLt⟩
  | ⟨1, _⟩ => ⟨(y 1).val, (y 1).isLt⟩

theorem zero_offsets : (![0, 0] : Fin 2 → Nat) = fun _ => 0 := funext fun a => by fin_cases a <;> rfl

theorem lhs_h1_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_h1_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_h1_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_h1_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- An h1 entry of a point is the relu of the adj row times the S1 column. -/
theorem h1Of_apply (a : Vec Ideal S400x10000 .f32) (s1 : Vec Ideal S10000x32 .bf16) (y : S400x32.Idx) :
    (h1Of (F := Ideal) a s1 y : EReal) = max (∑ k : Fin 10000, a (adjIdx y k) * s1 (s1Idx y k)) 0 := by
  unfold h1Of
  rw [View.canon_unit_zero zero_offsets]
  simp only [View.ld_unit_zero (S := S400x10000) zero_offsets, View.ld_unit_zero (S := S10000x32) zero_offsets]
  unfold k1_pay1
  rw [ValueIdx.maximumf_apply, ValueIdx.broadcast_apply, shapeCast_self]
  simp only [matmul]
  rw [Ideal.matmul_constant_zero_apply]
  show max _ (Ideal.ofBits .f32 0x00000000#32) = _
  rw [Ideal.ofBits_zero_f32]
  refine congrArg (fun z : EReal => max z 0) ?_
  rw [← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx y ((ValueIdx.contrEquiv1 dot_S400x10000_S10000x32_S400x32_1_0_0_1_n_n 10000 rfl rfl).symm k) = adjIdx y k := funext fun a => Fin.ext (by
    match a with
    | ⟨0, _⟩ => exact lhs_h1_0 _ _
    | ⟨1, _⟩ => exact (lhs_h1_1 _ _).trans hk)
  have er : dot_S400x10000_S10000x32_S400x32_1_0_0_1_n_n.rhsIdx y ((ValueIdx.contrEquiv1 dot_S400x10000_S10000x32_S400x32_1_0_0_1_n_n 10000 rfl rfl).symm k) = s1Idx y k := funext fun a => Fin.ext (by
    match a with
    | ⟨0, _⟩ => exact (rhs_h1_0 _ _).trans hk
    | ⟨1, _⟩ => exact rhs_h1_1 _ _)
  rw [el, er, ValueIdx.truncf_apply]

/-- The adj block of point t at (p, k) is the adj array at (400 (t % 25) + p, k). -/
theorem iblk1_0_apply (c : Dev nD) (t : Fin cfg1.N) (j : S400x10000.Idx) (i : S10000x10000.Idx)
    (h0 : (i 0).val = 400 * (t.val % 25) + (j 0).val) (h1 : (i 1).val = (j 1).val) :
    (iblk1 V c 0 t j : EReal) = V c main_arg1 i := by
  unfold iblk1
  rw [View.read_apply]
  show V c main_arg1 (((cfg1.win 0).blk t).view.emb j) = V c main_arg1 i
  refine congrArg (V c main_arg1) ?_
  funext a; apply Fin.ext
  match a with
  | ⟨0, _⟩ =>
    show (((cfg1.win 0).rect t).emb j 0 : Nat) = (i 0).val
    rw [Window.rect_emb_val, index1_0]
    show t.val % 25 * 400 + (j 0).val = (i 0).val
    omega
  | ⟨1, _⟩ =>
    show (((cfg1.win 0).rect t).emb j 1 : Nat) = (i 1).val
    rw [Window.rect_emb_val, index1_0]
    show 0 * 10000 + (j 1).val = (i 1).val
    omega

/-- The S1 block of any point is the whole S1 array. -/
theorem iblk1_1_apply (c : Dev nD) (t : Fin cfg1.N) (j : S10000x32.Idx) (i : S10000x32.Idx)
    (h0 : (i 0).val = (j 0).val) (h1 : (i 1).val = (j 1).val) :
    (iblk1 V c 1 t j : EReal) = V c main_v0 i := by
  unfold iblk1
  rw [View.read_apply]
  show V c main_v0 (((cfg1.win 1).blk t).view.emb j) = V c main_v0 i
  refine congrArg (V c main_v0) ?_
  funext a; apply Fin.ext
  match a with
  | ⟨0, _⟩ =>
    show (((cfg1.win 1).rect t).emb j 0 : Nat) = (i 0).val
    rw [Window.rect_emb_val, index1_1]
    show 0 * 10000 + (j 0).val = (i 0).val
    omega
  | ⟨1, _⟩ =>
    show (((cfg1.win 1).rect t).emb j 1 : Nat) = (i 1).val
    rw [Window.rect_emb_val, index1_1]
    show 0 * 32 + (j 1).val = (i 1).val
    omega

end H1

open H1

/-- The h1 rows a point computes from its adj block (rows from 400 (t % 25)) and S1 are the reference's h1 at those rows,
    when S1's array holds the reference's x · W1. -/
theorem h1Of_row (c : Dev nD) (x : Vec Ideal S10000x128 .f32) (w1 : Vec Ideal S128x32 .f32)
    (h0 : (V c main_v0 : S10000x32.Idx → EReal) = Cert.ReferenceIdeal.ReadP.val_main_v0 (F := Ideal) x w1)
    (t : Fin cfg1.N) (y : S400x32.Idx) (idx : S10000x32.Idx)
    (hr : (idx 0).val = 400 * (t.val % 25) + (y 0).val) (hc : (idx 1).val = (y 1).val) :
    (h1Of (F := Ideal) (iblk1 V c 0 t) (iblk1 V c 1 t) y : EReal)
      = Cert.ReferenceIdeal.ReadP.val_main_v3 (F := Ideal) x (V c main_arg1) w1 idx := by
  rw [h1Of_apply, Cert.ReferenceIdeal.ReadP.val_main_v3_apply, Cert.ReferenceIdeal.ReadP.val_main_v1_apply,
    Cert.ReferenceIdeal.ReadP.val_main_v2_apply, Cert.ReferenceIdeal.ReadP.val_main_cst_apply]
  show max _ 0 = max _ (Ideal.ofBits .f32 0x00000000#32)
  rw [Ideal.ofBits_zero_f32]
  refine congrArg (fun z : EReal => max z 0) ?_
  refine Finset.sum_congr rfl fun k _ => ?_
  rw [iblk1_0_apply V c t (adjIdx y k) (Cert.ReferenceIdeal.ReadP.lidx_main_v1 idx k) hr rfl,
    iblk1_1_apply V c t (s1Idx y k) (Cert.ReferenceIdeal.ReadP.ridx_main_v1 idx k) rfl hc, h0]

namespace H1

/-- The point whose h1 rows window 3 holds after point t: t itself in phase 0, point 24 afterwards. -/
theorem h1pt_val (t : Fin cfg1.N) : (h1pt t).val = if t.val < 25 then t.val else 24 := by
  unfold h1pt
  split <;> rfl

/-- What a flushing point writes back into the h1 array is its block of the reference's h1. -/
theorem flushed1_3_eq (c : Dev nD) (x : Vec Ideal S10000x128 .f32) (w1 : Vec Ideal S128x32 .f32)
    (h0 : (V c main_v0 : S10000x32.Idx → EReal) = Cert.ReferenceIdeal.ReadP.val_main_v0 (F := Ideal) x w1)
    (t : Fin cfg1.N) (hf : (cfg1.win 3).flush t = true) :
    (dat1 (F := Ideal) V c).flushed 3 t
      = ((cfg1.win 3).blk t).view.read (Elt Ideal) (Cert.ReferenceIdeal.ReadP.val_main_v3 (F := Ideal) x (V c main_arg1) w1) := by
  show (cfg1.win 3).cut (cfg1.grid.coords t) ((dat1 V c).after 3 t) = _
  rw [after1_3]
  funext j
  rw [View.read_apply]
  show (h1Of (F := Ideal) (iblk1 V c 0 (h1pt t)) (iblk1 V c 1 (h1pt t)) j : EReal)
    = Cert.ReferenceIdeal.ReadP.val_main_v3 (F := Ideal) x (V c main_arg1) w1 (((cfg1.win 3).blk t).view.emb j)
  have ht := (flush1_3 t).mp hf
  have hv := h1pt_val t
  refine h1Of_row V c x w1 h0 (h1pt t) j _ ?_ ?_
  · show (((cfg1.win 3).rect t).emb j 0 : Nat) = 400 * ((h1pt t).val % 25) + (j 0).val
    rw [Window.rect_emb_val, index1_3, hv]
    show (if t.val < 25 then t.val else 24) * 400 + (j 0).val = _
    split <;> omega
  · show (((cfg1.win 3).rect t).emb j 1 : Nat) = (j 1).val
    rw [Window.rect_emb_val, index1_3]
    show 0 * 32 + (j 1).val = (j 1).val
    omega

/-- An index of the h1 array is in point t's block iff each coordinate is in the block's range on its axis. -/
theorem mem_blk1_3 (t : Fin cfg1.N) (i : S10000x32.Idx) :
    i ∈ ((cfg1.win 3).blk t).view.set ↔ ∀ a : Fin 2, (cfg1.win 3).index t a * S400x32.size a ≤ (i a).val ∧ (i a).val < (cfg1.win 3).index t a * S400x32.size a + S400x32.size a := by
  show i ∈ ((View.whole main_v1_0).slice ((cfg1.win 3).rect t)).set ↔ _
  rw [View.set_slice_whole, Rect.mem_set_unit]
  exact Iff.rfl

/-- Row r of the h1 array lies in block r / 400; blocks 0..23 are written back by points 0..23, block 24 by the last point. -/
theorem cover1_3 (i : S10000x32.Idx) :
    ∃ t : Fin cfg1.N, (cfg1.win 3).flush t = true ∧ i ∈ ((cfg1.win 3).blk t).view.set := by
  have hi0 : (i 0).val < 10000 := (i 0).isLt
  have hi1 : (i 1).val < 32 := (i 1).isLt
  by_cases hb : (i 0).val / 400 < 24
  · have hlt : (i 0).val / 400 < 50 := by omega
    have hv : (pt ((i 0).val / 400) hlt).val = (i 0).val / 400 := rfl
    refine ⟨pt ((i 0).val / 400) hlt, (flush1_3 _).mpr (Or.inl (by rw [hv]; exact hb)), ?_⟩
    have q0 : (cfg1.win 3).index (pt ((i 0).val / 400) hlt) (0 : Fin 2) = (i 0).val / 400 := by
      rw [index1_3, hv]
      show (if (i 0).val / 400 < 25 then (i 0).val / 400 else 24) = _
      rw [if_pos (by omega)]
    have q1 : (cfg1.win 3).index (pt ((i 0).val / 400) hlt) (1 : Fin 2) = 0 := by
      rw [index1_3]; rfl
    rw [mem_blk1_3]
    intro a
    match a with
    | ⟨0, _⟩ =>
      show (cfg1.win 3).index (pt ((i 0).val / 400) hlt) (0 : Fin 2) * 400 ≤ (i 0).val ∧ (i 0).val < (cfg1.win 3).index (pt ((i 0).val / 400) hlt) (0 : Fin 2) * 400 + 400
      rw [q0]; omega
    | ⟨1, _⟩ =>
      show (cfg1.win 3).index (pt ((i 0).val / 400) hlt) (1 : Fin 2) * 32 ≤ (i 1).val ∧ (i 1).val < (cfg1.win 3).index (pt ((i 0).val / 400) hlt) (1 : Fin 2) * 32 + 32
      rw [q1]; omega
  · have hv : (pt 49 (by omega)).val = 49 := rfl
    refine ⟨pt 49 (by omega), (flush1_3 _).mpr (Or.inr hv), ?_⟩
    have q0 : (cfg1.win 3).index (pt 49 (by omega)) (0 : Fin 2) = 24 := by
      rw [index1_3, hv]; rfl
    have q1 : (cfg1.win 3).index (pt 49 (by omega)) (1 : Fin 2) = 0 := by
      rw [index1_3]; rfl
    rw [mem_blk1_3]
    intro a
    match a with
    | ⟨0, _⟩ =>
      show (cfg1.win 3).index (pt 49 (by omega)) (0 : Fin 2) * 400 ≤ (i 0).val ∧ (i 0).val < (cfg1.win 3).index (pt 49 (by omega)) (0 : Fin 2) * 400 + 400
      rw [q0]; omega
    | ⟨1, _⟩ =>
      show (cfg1.win 3).index (pt 49 (by omega)) (1 : Fin 2) * 32 ≤ (i 1).val ∧ (i 1).val < (cfg1.win 3).index (pt 49 (by omega)) (1 : Fin 2) * 32 + 32
      rw [q1]; omega

end H1

/-- After region 1 the h1 array is the reference's h1. -/
theorem h1_value (c : Dev nD) (x : Vec Ideal S10000x128 .f32) (w1 : Vec Ideal S128x32 .f32)
    (h0 : (V c main_v0 : S10000x32.Idx → EReal) = Cert.ReferenceIdeal.ReadP.val_main_v0 (F := Ideal) x w1) :
    ((dat1 (F := Ideal) V c).arrAt 3 cfg1.N : S10000x32.Idx → EReal)
      = Cert.ReferenceIdeal.ReadP.val_main_v3 (F := Ideal) x (V c main_arg1) w1 := by
  exact (dat1 (F := Ideal) V c).arrAt_eq_of_cover 3 (Cert.ReferenceIdeal.ReadP.val_main_v3 (F := Ideal) x (V c main_arg1) w1)
    (fun t hf => flushed1_3_eq V c x w1 h0 t hf) cover1_3

end Cert.KernelIdeal.Hand

end
-- ==== Proof.KI.ValLg.lean ====
/-
  The first result, log_softmax(relu(adj · (h1 · W2))), at the ideal instance. The scratch after phase 0 is the reference's
  h1 · W2; a phase-1 point's stored rows are the reference's log-softmax at the corresponding rows (the row maximum with the
  reference's extra maximum against -inf, which changes nothing); the 25 blocks written back in phase 1 cover the array.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.R0
import proofs.«107694_g18872086298805_cont_8to1_696_27_alg».proof.Proof.KI.R1Data
import proofs.«107694_g18872086298805_cont_8to1_696_27_alg».proof.Proof.KI.R1Facts
import proofs.«107694_g18872086298805_cont_8to1_696_27_alg».proof.Proof.RefRead
import Idealize.ShloMosaic.Lib.Pipeline.Value
import Idealize.ShloMosaic.Lib.ValueIdx
import Idealize.ShloMosaic.Lib.ValueLayout
import Idealize.ShloMosaic.PureOps.Ideal.Laws
import proofs.«107694_g18872086298805_cont_8to1_696_27_alg».proof.Proof.KI.ValH1
import Idealize.ShloMosaic.Lib.ReduceAll
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The scratch: a point's rows of h1 · W2 at an entry -/

namespace Lg

theorem lhs_hw2_0 (i : S400x16.Idx) (q : dot_S400x32_S32x16_S400x16_1_0_0_1_n_n.contr.Idx) :
    (dot_S400x32_S32x16_S400x16_1_0_0_1_n_n.lhsIdx i q 0).val = (i 0).val := by
  unfold DotDims.lhsIdx
  rw [dif_neg (show ¬(0 : Fin S400x32.rank) ∈ dot_S400x32_S32x16_S400x16_1_0_0_1_n_n.lhsBatch by decide), dif_pos (show (0 : Fin S400x32.rank) ∈ dot_S400x32_S32x16_S400x16_1_0_0_1_n_n.lhsNonContracting by decide)]
  rfl
theorem lhs_hw2_1 (i : S400x16.Idx) (q : dot_S400x32_S32x16_S400x16_1_0_0_1_n_n.contr.Idx) :
    (dot_S400x32_S32x16_S400x16_1_0_0_1_n_n.lhsIdx i q 1).val = (q ⟨0, by decide⟩).val :=
  dot_S400x32_S32x16_S400x16_1_0_0_1_n_n.lhsIdx_val_of_single rfl i q
theorem rhs_hw2_0 (i : S400x16.Idx) (q : dot_S400x32_S32x16_S400x16_1_0_0_1_n_n.contr.Idx) :
    (dot_S400x32_S32x16_S400x16_1_0_0_1_n_n.rhsIdx i q 0).val = (q ⟨0, by decide⟩).val :=
  dot_S400x32_S32x16_S400x16_1_0_0_1_n_n.rhsIdx_val_of_single rfl i q
theorem rhs_hw2_1 (i : S400x16.Idx) (q : dot_S400x32_S32x16_S400x16_1_0_0_1_n_n.contr.Idx) :
    (dot_S400x32_S32x16_S400x16_1_0_0_1_n_n.rhsIdx i q 1).val = (i 1).val := by
  unfold DotDims.rhsIdx
  rw [dif_neg (show ¬(1 : Fin S32x16.rank) ∈ dot_S400x32_S32x16_S400x16_1_0_0_1_n_n.rhsBatch by decide), dif_pos (show (1 : Fin S32x16.rank) ∈ dot_S400x32_S32x16_S400x16_1_0_0_1_n_n.rhsNonContracting by decide)]
  rfl

theorem hz2 : (![0, 0] : Fin 2 → Nat) = fun _ => 0 := funext fun a => by fin_cases a <;> rfl

/-- A phase-0 point's scratch rows at an entry: the sum over k of its h1 rows times W2. -/
theorem hw2Of_apply (a : Vec Ideal S400x10000 .f32) (s1 : Vec Ideal S10000x32 .bf16) (w2 : Vec Ideal S32x16 .f32)
    (p : Fin 400) (q : Fin 16) :
    (hw2Of (F := Ideal) a s1 w2 (ValueIdx.ix2 p q) : EReal)
      = ∑ k : Fin 32, (h1Of (F := Ideal) a s1 (ValueIdx.ix2 p k) : EReal) * w2 (ValueIdx.ix2 k q) := by
  unfold hw2Of h1Of k1_pay2
  rw [View.canon_unit_zero hz2, View.ld_unit_zero (S := S32x16) hz2]
  generalize k1_pay1 (View.ld a qA) (View.ld s1 qS1) = h1
  rw [shapeCast_self, ValueIdx.truncf_apply]
  simp only [matmul]
  rw [Ideal.matmul_constant_zero_apply, ← Equiv.sum_comp (ValueIdx.contrEquiv1 dot_S400x32_S32x16_S400x16_1_0_0_1_n_n 32 rfl rfl).symm]
  refine Finset.sum_congr rfl fun k _ => ?_
  have hk := ValueIdx.contrEquiv1_symm_val dot_S400x32_S32x16_S400x16_1_0_0_1_n_n 32 rfl rfl k
  have el : dot_S400x32_S32x16_S400x16_1_0_0_1_n_n.lhsIdx (ValueIdx.ix2 p q) ((ValueIdx.contrEquiv1 dot_S400x32_S32x16_S400x16_1_0_0_1_n_n 32 rfl rfl).symm k) = ValueIdx.ix2 p k := funext fun a => Fin.ext (by
    match a with
    | ⟨0, _⟩ => exact lhs_hw2_0 _ _
    | ⟨1, _⟩ => exact (lhs_hw2_1 _ _).trans hk)
  have er : dot_S400x32_S32x16_S400x16_1_0_0_1_n_n.rhsIdx (ValueIdx.ix2 p q) ((ValueIdx.contrEquiv1 dot_S400x32_S32x16_S400x16_1_0_0_1_n_n 32 rfl rfl).symm k) = ValueIdx.ix2 k q := funext fun a => Fin.ext (by
    match a with
    | ⟨0, _⟩ => exact (rhs_hw2_0 _ _).trans hk
    | ⟨1, _⟩ => exact rhs_hw2_1 _ _)
  rw [el, er]

/-- Window 2 is the whole of W2: its block at any point reads the array at the same index. -/
theorem blkW2_apply (c : Dev nD) (t : Fin cfg1.N) (y : S32x16.Idx) (i : S32x16.Idx)
    (h0 : (i 0).val = (y 0).val) (h1 : (i 1).val = (y 1).val) :
    (iblk1 (F := Ideal) V c 2 t y : EReal) = V c main_arg3 i := by
  show V c main_arg3 (((cfg1.win 2).blk t).view.emb y) = V c main_arg3 i
  refine congrArg _ (funext fun a => Fin.ext ?_)
  have e := index1_2 t
  match a with
  | ⟨0, _⟩ =>
    show (cfg1.win 2).index t (0 : Fin 2) * 32 + 1 * (y 0).val = (i 0).val
    rw [e, h0]; show 0 * 32 + 1 * (y 0).val = (y 0).val; omega
  | ⟨1, _⟩ =>
    show (cfg1.win 2).index t (1 : Fin 2) * 16 + 1 * (y 1).val = (i 1).val
    rw [e, h1]; show 0 * 16 + 1 * (y 1).val = (y 1).val; omega

/-- The adj block of point t holds rows 400 (t % 25) … of adj. -/
theorem blkAdj_apply (c : Dev nD) (t : Fin cfg1.N) (y : S400x10000.Idx) (i : S10000x10000.Idx)
    (h0 : (i 0).val = 400 * (t.val % 25) + (y 0).val) (h1 : (i 1).val = (y 1).val) :
    (iblk1 (F := Ideal) V c 0 t y : EReal) = V c main_arg1 i := by
  show V c main_arg1 (((cfg1.win 0).blk t).view.emb y) = V c main_arg1 i
  refine congrArg _ (funext fun a => Fin.ext ?_)
  have e := index1_0 t
  match a with
  | ⟨0, _⟩ =>
    show (cfg1.win 0).index t (0 : Fin 2) * 400 + 1 * (y 0).val = (i 0).val
    rw [e, h0]; show (t.val % 25) * 400 + 1 * (y 0).val = _; omega
  | ⟨1, _⟩ =>
    show (cfg1.win 0).index t (1 : Fin 2) * 10000 + 1 * (y 1).val = (i 1).val
    rw [e, h1]; show 0 * 10000 + 1 * (y 1).val = (y 1).val; omega

theorem rowLoc_eq (idx : S10000x16.Idx) :
    rowLoc idx = ValueIdx.ix2 (⟨(idx 0).val % 400, Nat.mod_lt _ (by decide)⟩ : Fin 400) (⟨(idx 1).val, (idx 1).isLt⟩ : Fin 16) :=
  funext fun a => by match a with | ⟨0, _⟩ => rfl | ⟨1, _⟩ => rfl

end Lg

open Lg

/-- The scratch once phase 0 is over is the reference's h1 · W2. -/
theorem hw2full_value (c : Dev nD) (x : Vec Ideal S10000x128 .f32) (w1 : Vec Ideal S128x32 .f32)
    (h0 : (V c main_v0 : S10000x32.Idx → EReal) = Cert.ReferenceIdeal.ReadP.val_main_v0 (F := Ideal) x w1) :
    (hw2full (F := Ideal) V c : S10000x16.Idx → EReal)
      = Cert.ReferenceIdeal.ReadP.val_main_v4 (F := Ideal) x (V c main_arg1) w1 (V c main_arg3) := by
  funext idx
  rw [Cert.ReferenceIdeal.ReadP.val_main_v4_apply]
  show (hw2Of (F := Ideal) (iblk1 V c 0 (rowPt idx)) (iblk1 V c 1 (rowPt idx)) (iblk1 V c 2 (rowPt idx)) (rowLoc idx) : EReal) = _
  rw [rowLoc_eq, hw2Of_apply]
  refine Finset.sum_congr rfl fun k _ => ?_
  have hi : (idx 0).val < 10000 := (idx 0).isLt
  rw [h1Of_row V c x w1 h0 (rowPt idx) _ (Cert.ReferenceIdeal.ReadP.lidx_main_v4 idx k)
      (by show (idx 0).val = 400 * (((idx 0).val / 400) % 25) + (idx 0).val % 400; omega) rfl]
  exact congrArg (_ * ·) (blkW2_apply V c (rowPt idx) (ValueIdx.ix2 k _) (Cert.ReferenceIdeal.ReadP.ridx_main_v4 idx k) rfl rfl)

namespace Lg

/-! ## The log-softmax of a row -/

/-- A row's maximum, folded from the accumulator's word (−∞). -/
def rowMax (r : Fin 16 → EReal) : EReal :=
  (Finset.univ : Finset (Fin 16)).fold max (Ideal.ofBits .f32 0xFF800000#32) r

/-- The log-softmax of a row at an entry: (r q − max r) − log ∑ exp (r j − max r). -/
def lsmRow (r : Fin 16 → EReal) (q : Fin 16) : EReal :=
  (r q - rowMax r) - Ideal.log (∑ j : Fin 16, Ideal.exp (r j - rowMax r))

/-- A length-400 vector viewed as a column reads its entry. -/
theorem castCol_apply {α : Type} (v : S400.Idx → α) (p : Fin 400) (u : Fin 1) :
    shapeCast S400x1 v shapeCasts_S400_S400x1 (ValueIdx.ix2 p u) = v (ValueIdx.ix1 p) :=
  shapeCast_apply v _ _ _ (by
    have hu : u.val = 0 := by omega
    rw [Shape.rowMajor_val_two, Shape.rowMajor_val_one]
    show p.val = p.val * 1 + u.val
    omega)

/-- A column broadcast along the rows reads the column's entry of the row. -/
theorem bcastCol_apply {α : Type} (v : S400x1.Idx → α) (p : Fin 400) (q : Fin 16) :
    broadcastTo S400x16 v broadcasts_S400x1_S400x16 (ValueIdx.ix2 p q) = v (ValueIdx.ix2 p (0 : Fin 1)) := by
  refine broadcastTo_apply v _ (ValueIdx.ix2 p q) (ValueIdx.ix2 p (0 : Fin 1)) fun ax => ?_
  match ax with
  | ⟨0, _⟩ => show p.val = if (400 : ℕ) = 1 then 0 else p.val; rw [if_neg (by decide)]
  | ⟨1, _⟩ => rfl

theorem lift_row (h : S400x16.Reduces [1] S400) (p : Fin 400) (j : Fin 16) :
    h.lift (ValueIdx.ix1 p) j = ValueIdx.ix2 p j :=
  funext fun a => Fin.ext (by match a with | ⟨0, _⟩ => rfl | ⟨1, _⟩ => rfl)

/-- The lane maximum of a block at row p is the row's maximum. -/
theorem rowMaxRed_apply (src : FVec Ideal S400x16 .f32) (hφ : FKind.Formats .f32)
    (hacc : (0xFF800000#32 : BitVec 32) = FKind.maximumf.neutral .f32 hφ) (p : Fin 400) :
    multiReduction .maximumf [1] S400 src 0xFF800000#32 reduces_S400x16_S400 hφ hacc (ValueIdx.ix1 p)
      = rowMax (fun j => src (ValueIdx.ix2 p j)) := by
  refine (Ideal.multiReduction_maximumf_single src _ reduces_S400x16_S400 hφ hacc (ValueIdx.ix1 p)).trans ?_
  unfold rowMax
  have e : (src ∘ reduces_S400x16_S400.lift (ValueIdx.ix1 p)) = fun j => src (ValueIdx.ix2 p j) :=
    funext fun j => congrArg src (lift_row _ p j)
  rw [e]; rfl

/-- The lane sum of a block at row p is the sum over the row. -/
theorem rowSumRed_apply (src : FVec Ideal S400x16 .f32) (hφ : FKind.Formats .f32)
    (hacc : (0x00000000#32 : BitVec 32) = FKind.add.neutral .f32 hφ) (p : Fin 400) :
    multiReduction .add [1] S400 src 0x00000000#32 reduces_S400x16_S400 hφ hacc (ValueIdx.ix1 p)
      = ∑ j : Fin 16, src (ValueIdx.ix2 p j) := by
  refine (Ideal.multiReduction_add_single src _ reduces_S400x16_S400 hφ hacc (ValueIdx.ix1 p)).trans ?_
  exact Finset.sum_congr rfl fun k _ => congrArg src (lift_row _ p k)

/-- The body's last steps on a block v: subtract the row maximum, then the log of the row's sum of exponentials. -/
theorem lsmTail_apply (v : FVec Ideal S400x16 .f32) (hφ : FKind.Formats .f32)
    (hm : (0xFF800000#32 : BitVec 32) = FKind.maximumf.neutral .f32 hφ)
    (ha : (0x00000000#32 : BitVec 32) = FKind.add.neutral .f32 hφ) (p : Fin 400) (q : Fin 16) :
    subf (subf v (broadcastTo S400x16 (shapeCast S400x1 (multiReduction .maximumf [1] S400 v 0xFF800000#32 reduces_S400x16_S400 hφ hm) shapeCasts_S400_S400x1) broadcasts_S400x1_S400x16))
      (broadcastTo S400x16 (log (shapeCast S400x1 (multiReduction .add [1] S400
        (exp (subf v (broadcastTo S400x16 (shapeCast S400x1 (multiReduction .maximumf [1] S400 v 0xFF800000#32 reduces_S400x16_S400 hφ hm) shapeCasts_S400_S400x1) broadcasts_S400x1_S400x16)))
        0x00000000#32 reduces_S400x16_S400 hφ ha) shapeCasts_S400_S400x1)) broadcasts_S400x1_S400x16) (ValueIdx.ix2 p q)
      = lsmRow (fun j => v (ValueIdx.ix2 p j)) q := by
  have hM : ∀ q' : Fin 16, broadcastTo S400x16 (shapeCast S400x1 (multiReduction .maximumf [1] S400 v 0xFF800000#32 reduces_S400x16_S400 hφ hm) shapeCasts_S400_S400x1) broadcasts_S400x1_S400x16 (ValueIdx.ix2 p q')
      = rowMax (fun j => v (ValueIdx.ix2 p j)) := fun q' => by
    rw [bcastCol_apply, castCol_apply, rowMaxRed_apply]
  generalize broadcastTo S400x16 (shapeCast S400x1 (multiReduction .maximumf [1] S400 v 0xFF800000#32 reduces_S400x16_S400 hφ hm) shapeCasts_S400_S400x1) broadcasts_S400x1_S400x16 = mb at hM ⊢
  rw [ValueIdx.subf_apply, ValueIdx.subf_apply, bcastCol_apply]
  show _ - FloatOps.log (shapeCast S400x1 _ shapeCasts_S400_S400x1 (ValueIdx.ix2 p (0 : Fin 1))) = _
  rw [castCol_apply, rowSumRed_apply]
  have hs : (∑ j : Fin 16, exp (subf v mb) (ValueIdx.ix2 p j))
      = ∑ j : Fin 16, Ideal.exp (v (ValueIdx.ix2 p j) - rowMax (fun j => v (ValueIdx.ix2 p j))) :=
    Finset.sum_congr rfl fun j _ => by
      show Ideal.exp (v (ValueIdx.ix2 p j) - mb (ValueIdx.ix2 p j)) = _
      rw [hM]
  rw [hs, hM]
  rfl

theorem lhs_lg_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_lg_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_lg_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_lg_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- adj block times scratch, then relu, at an entry. -/
theorem reluDot_apply (a : FVec Ideal S400x10000 .bf16) (scr : FVec Ideal S10000x16 .bf16) (p : Fin 400) (q : Fin 16) :
    maximumf (matmul dot_S400x10000_S10000x16_S400x16_1_0_0_1_n_n none a scr (constant S400x16 .f32 0x00000000#32))
        (broadcast S400x16 (Scalar.ofBits .f32 0x00000000#32)) (ValueIdx.ix2 p q)
      = max (∑ k : Fin 10000, a (ValueIdx.ix2 p k) * scr (ValueIdx.ix2 k q)) (Ideal.ofBits .f32 0x00000000#32) := by
  rw [ValueIdx.maximumf_apply]
  simp only [matmul]
  rw [Ideal.matmul_constant_zero_apply, ← Equiv.sum_comp (ValueIdx.contrEquiv1 dot_S400x10000_S10000x16_S400x16_1_0_0_1_n_n 10000 rfl rfl).symm]
  refine congrArg₂ max (Finset.sum_congr rfl fun k _ => ?_) rfl
  have hk := ValueIdx.contrEquiv1_symm_val dot_S400x10000_S10000x16_S400x16_1_0_0_1_n_n 10000 rfl rfl k
  have el : dot_S400x10000_S10000x16_S400x16_1_0_0_1_n_n.lhsIdx (ValueIdx.ix2 p q) ((ValueIdx.contrEquiv1 dot_S400x10000_S10000x16_S400x16_1_0_0_1_n_n 10000 rfl rfl).symm k) = ValueIdx.ix2 p k := funext fun a => Fin.ext (by
    match a with
    | ⟨0, _⟩ => exact lhs_lg_0 _ _
    | ⟨1, _⟩ => exact (lhs_lg_1 _ _).trans hk)
  have er : dot_S400x10000_S10000x16_S400x16_1_0_0_1_n_n.rhsIdx (ValueIdx.ix2 p q) ((ValueIdx.contrEquiv1 dot_S400x10000_S10000x16_S400x16_1_0_0_1_n_n 10000 rfl rfl).symm k) = ValueIdx.ix2 k q := funext fun a => Fin.ext (by
    match a with
    | ⟨0, _⟩ => exact (rhs_lg_0 _ _).trans hk
    | ⟨1, _⟩ => exact rhs_lg_1 _ _)
  rw [el, er]

/-- A phase-1 point's stored rows at an entry: the log-softmax of the row of relu(adj block · scratch). -/
theorem lgOf_apply (a : Vec Ideal S400x10000 .f32) (scr : Vec Ideal S10000x16 .bf16) (p : Fin 400) (q : Fin 16) :
    (lgOf (F := Ideal) a scr (ValueIdx.ix2 p q) : EReal)
      = lsmRow (fun j => max (∑ k : Fin 10000, a (ValueIdx.ix2 p k) * scr (ValueIdx.ix2 k j)) (Ideal.ofBits .f32 0x00000000#32)) q := by
  unfold lgOf k1_pay3
  rw [View.canon_unit_zero hz2, View.ld_unit_zero (S := S400x10000) hz2, View.ld_unit_zero (S := S10000x16) hz2]
  refine (lsmTail_apply _ _ _ _ p q).trans ?_
  exact congrArg (fun r => lsmRow r q) (funext fun j => reluDot_apply _ _ p j)

/-! ## The reference's log-softmax at an entry -/

theorem max_fold_self (b : EReal) (f : Fin 16 → EReal) :
    max b ((Finset.univ : Finset (Fin 16)).fold max b f) = (Finset.univ : Finset (Fin 16)).fold max b f :=
  max_eq_right ((Finset.le_fold_max b).mpr (Or.inl le_rfl))

theorem refLift_row (h : Cert.ReferenceIdeal.S10000x16.Reduces [1] Cert.ReferenceIdeal.S10000) (p : Fin 10000) (j : Fin 16) :
    h.lift (ValueIdx.ix1 p) j = ValueIdx.ix2 p j :=
  funext fun a => Fin.ext (by match a with | ⟨0, _⟩ => rfl | ⟨1, _⟩ => rfl)

/-- The reference's row maximum (its reduce from −∞, then the maximum against −∞ again) is the row's maximum. -/
theorem refRowMax_apply (x : Vec Ideal S10000x128 .f32) (adj : Vec Ideal S10000x10000 .f32) (w1 : Vec Ideal S128x32 .f32)
    (w2 : Vec Ideal S32x16 .f32) (p : Fin 10000) :
    Cert.ReferenceIdeal.ReadP.val_main_call0_v2 (F := Ideal) x adj w1 w2 (ValueIdx.ix1 p)
      = rowMax (fun j => Cert.ReferenceIdeal.ReadP.val_main_v7 (F := Ideal) x adj w1 w2 (ValueIdx.ix2 p j)) := by
  rw [Cert.ReferenceIdeal.ReadP.val_main_call0_v2_apply, Cert.ReferenceIdeal.ReadP.val_main_call0_v1_apply,
    Cert.ReferenceIdeal.ReadP.val_main_call0_cst_0_apply]
  unfold Cert.ReferenceIdeal.ReadP.val_main_call0_v0
  generalize Cert.ReferenceIdeal.ReadP.val_main_v7 (F := Ideal) x adj w1 w2 = v7
  have hred : Cert.ReferenceIdeal.S10000x16.Reduces [1] Cert.ReferenceIdeal.S10000 := by decide
  have hfold := Host.reduce_eq_fold_single (s := Cert.ReferenceIdeal.S10000x16) (t := Cert.ReferenceIdeal.S10000) (a := 1)
    (u := Cert.ReferenceIdeal.S_) (FloatOps.maximumf (F := Ideal) (φ := .f32)) v7
    (Cert.ReferenceIdeal.ReadP.val_main_call0_cst (F := Ideal)) Cert.ReferenceIdeal.Gen.reducesTo_S10000x16_S10000_d1 hred
    Cert.ReferenceIdeal.Gen.h_S_ (ValueIdx.ix1 p)
  rw [hfold]
  have e : (v7 ∘ hred.lift (ValueIdx.ix1 p)) = fun j : Fin 16 => v7 (ValueIdx.ix2 p j) :=
    funext fun j => congrArg v7 (refLift_row hred p j)
  rw [e]
  exact max_fold_self (Ideal.ofBits .f32 0xFF800000#32) (fun j : Fin 16 => v7 (ValueIdx.ix2 p j))

/-- The reference's log-softmax at an entry is the log-softmax of its row of relu(adj · (h1 · W2)). -/
theorem refLsm_apply (x : Vec Ideal S10000x128 .f32) (adj : Vec Ideal S10000x10000 .f32) (w1 : Vec Ideal S128x32 .f32)
    (w2 : Vec Ideal S32x16 .f32) (p : Fin 10000) (q : Fin 16) :
    Cert.ReferenceIdeal.ReadP.val_main_v8 (F := Ideal) x adj w1 w2 (ValueIdx.ix2 p q)
      = lsmRow (fun j => Cert.ReferenceIdeal.ReadP.val_main_v7 (F := Ideal) x adj w1 w2 (ValueIdx.ix2 p j)) q := by
  have hM : ∀ q' : Fin 16, Cert.ReferenceIdeal.ReadP.val_main_call0_v4 (F := Ideal) x adj w1 w2 (ValueIdx.ix2 p q')
      = rowMax (fun j => Cert.ReferenceIdeal.ReadP.val_main_v7 (F := Ideal) x adj w1 w2 (ValueIdx.ix2 p j)) := fun q' => by
    have ei : Cert.ReferenceIdeal.ReadP.idx_main_call0_v3 (Cert.ReferenceIdeal.ReadP.idx_main_call0_v4 (ValueIdx.ix2 p q'))
        = ValueIdx.ix1 p := funext fun a => Fin.ext (by match a with | ⟨0, _⟩ => rfl)
    rw [Cert.ReferenceIdeal.ReadP.val_main_call0_v4_apply, Cert.ReferenceIdeal.ReadP.val_main_call0_v3_apply, ei,
      refRowMax_apply]
  rw [Cert.ReferenceIdeal.ReadP.val_main_v8_apply, Cert.ReferenceIdeal.ReadP.val_main_call0_v5_apply,
    Cert.ReferenceIdeal.ReadP.val_main_call0_v10_apply, Cert.ReferenceIdeal.ReadP.val_main_call0_v9_apply,
    Cert.ReferenceIdeal.ReadP.val_main_call0_v8_apply, Cert.ReferenceIdeal.ReadP.val_main_call0_v7_apply, hM,
    Cert.ReferenceIdeal.ReadP.val_main_call0_cst_1_apply]
  have hs : (∑ k : Fin 16, Cert.ReferenceIdeal.ReadP.val_main_call0_v6 (F := Ideal) x adj w1 w2
        (Cert.ReferenceIdeal.ReadP.idx_main_call0_v7 (Cert.ReferenceIdeal.ReadP.idx_main_call0_v8
          (Cert.ReferenceIdeal.ReadP.idx_main_call0_v10 (ValueIdx.ix2 p q))) k))
      = ∑ j : Fin 16, Ideal.exp (Cert.ReferenceIdeal.ReadP.val_main_v7 (F := Ideal) x adj w1 w2 (ValueIdx.ix2 p j)
          - rowMax (fun j => Cert.ReferenceIdeal.ReadP.val_main_v7 (F := Ideal) x adj w1 w2 (ValueIdx.ix2 p j))) :=
    Finset.sum_congr rfl fun k _ => by
      have ek : Cert.ReferenceIdeal.ReadP.idx_main_call0_v7 (Cert.ReferenceIdeal.ReadP.idx_main_call0_v8
          (Cert.ReferenceIdeal.ReadP.idx_main_call0_v10 (ValueIdx.ix2 p q))) k = ValueIdx.ix2 p k :=
        funext fun a => Fin.ext (by match a with | ⟨0, _⟩ => rfl | ⟨1, _⟩ => rfl)
      rw [ek, Cert.ReferenceIdeal.ReadP.val_main_call0_v6_apply, Cert.ReferenceIdeal.ReadP.val_main_call0_v5_apply, hM]
      rfl
  rw [hs]
  show _ - Ideal.log (Ideal.ofBits .f32 0x00000000#32 + _) = _
  rw [Ideal.ofBits_zero_f32, zero_add]
  rfl

/-- The reference's relu(adj · (h1 · W2)) at an entry. -/
theorem refRelu_apply (x : Vec Ideal S10000x128 .f32) (adj : Vec Ideal S10000x10000 .f32) (w1 : Vec Ideal S128x32 .f32)
    (w2 : Vec Ideal S32x16 .f32) (p : Fin 10000) (j : Fin 16) :
    Cert.ReferenceIdeal.ReadP.val_main_v7 (F := Ideal) x adj w1 w2 (ValueIdx.ix2 p j)
      = max (∑ k : Fin 10000, adj (ValueIdx.ix2 p k) * Cert.ReferenceIdeal.ReadP.val_main_v4 (F := Ideal) x adj w1 w2 (ValueIdx.ix2 k j))
          (Ideal.ofBits .f32 0x00000000#32) := by
  rw [Cert.ReferenceIdeal.ReadP.val_main_v7_apply, Cert.ReferenceIdeal.ReadP.val_main_v5_apply,
    Cert.ReferenceIdeal.ReadP.val_main_v6_apply, Cert.ReferenceIdeal.ReadP.val_main_cst_0_apply]
  refine congrArg₂ max (Finset.sum_congr rfl fun k _ => ?_) rfl
  have el : Cert.ReferenceIdeal.ReadP.lidx_main_v5 (ValueIdx.ix2 p j) k = ValueIdx.ix2 p k :=
    funext fun a => Fin.ext (by match a with | ⟨0, _⟩ => rfl | ⟨1, _⟩ => rfl)
  have er : Cert.ReferenceIdeal.ReadP.ridx_main_v5 (ValueIdx.ix2 p j) k = ValueIdx.ix2 k j :=
    funext fun a => Fin.ext (by match a with | ⟨0, _⟩ => rfl | ⟨1, _⟩ => rfl)
  rw [el, er]

theorem lt50 (t : Fin cfg1.N) : t.val < 50 := lt_of_lt_of_eq t.isLt N1_eq

/-- A phase-1 point's stored rows are the reference's log-softmax at rows 400 (t − 25) …. -/
theorem lgOf_row (c : Dev nD) (x : Vec Ideal S10000x128 .f32) (w1 : Vec Ideal S128x32 .f32)
    (h0 : (V c main_v0 : S10000x32.Idx → EReal) = Cert.ReferenceIdeal.ReadP.val_main_v0 (F := Ideal) x w1)
    (t : Fin cfg1.N) (ht : 25 ≤ t.val) (p : Fin 400) (q : Fin 16) (P : Fin 10000) (hP : P.val = 400 * (t.val - 25) + p.val) :
    (lgOf (F := Ideal) (iblk1 V c 0 t) (hw2full V c) (ValueIdx.ix2 p q) : EReal)
      = Cert.ReferenceIdeal.ReadP.val_main_v8 (F := Ideal) x (V c main_arg1) w1 (V c main_arg3) (ValueIdx.ix2 P q) := by
  rw [lgOf_apply, refLsm_apply]
  refine congrArg (fun r => lsmRow r q) (funext fun j => ?_)
  rw [refRelu_apply]
  refine congrArg₂ max (Finset.sum_congr rfl fun k _ => ?_) rfl
  have ht50 := lt50 t
  rw [blkAdj_apply V c t (ValueIdx.ix2 p k) (ValueIdx.ix2 P k)
    (by show P.val = 400 * (t.val % 25) + p.val; omega) rfl]
  have hs := congrFun (hw2full_value V c x w1 h0) (ValueIdx.ix2 k j)
  rw [hs]

/-- An index of the array is in point t's block iff each coordinate is in the block's range on its axis. -/
theorem mem_blkLg (t : Fin cfg1.N) (i : S10000x16.Idx) :
    i ∈ ((cfg1.win 4).blk t).view.set ↔ ∀ a : Fin 2, (cfg1.win 4).index t a * S400x16.size a ≤ (i a).val
      ∧ (i a).val < (cfg1.win 4).index t a * S400x16.size a + S400x16.size a := by
  show i ∈ ((View.whole main_v1_1).slice (win1_4.rect t)).set ↔ _
  rw [View.set_slice_whole, Rect.mem_set_unit]
  exact Iff.rfl

/-- What a phase-1 point writes back is its block of the reference's log-softmax. -/
theorem flushedLg_eq (c : Dev nD) (x : Vec Ideal S10000x128 .f32) (w1 : Vec Ideal S128x32 .f32)
    (h0 : (V c main_v0 : S10000x32.Idx → EReal) = Cert.ReferenceIdeal.ReadP.val_main_v0 (F := Ideal) x w1)
    (t : Fin cfg1.N) (hf : (cfg1.win 4).flush t = true) :
    (dat1 (F := Ideal) V c).flushed 4 t = ((cfg1.win 4).blk t).view.read (Elt Ideal)
      (Cert.ReferenceIdeal.ReadP.val_main_v8 (F := Ideal) x (V c main_arg1) w1 (V c main_arg3)) := by
  have ht : 25 ≤ t.val := (flush1_4 t).mp hf
  have ht50 := lt50 t
  show (cfg1.win 4).cut (grid1.coords t) ((dat1 (F := Ideal) V c).after 4 t) = _
  rw [after1_4]
  funext j
  obtain ⟨p, q, rfl⟩ : ∃ (p : Fin 400) (q : Fin 16), j = ValueIdx.ix2 p q := ⟨j 0, j 1, ValueIdx.eq_ix2 j⟩
  show (lgOf (F := Ideal) (iblk1 V c 0 t) (hw2full V c) (ValueIdx.ix2 p q) : EReal)
    = Cert.ReferenceIdeal.ReadP.val_main_v8 (F := Ideal) x (V c main_arg1) w1 (V c main_arg3) (((cfg1.win 4).blk t).view.emb (ValueIdx.ix2 p q))
  have hidx : ((cfg1.win 4).blk t).view.emb (ValueIdx.ix2 p q)
      = ValueIdx.ix2 (⟨400 * (t.val - 25) + p.val, by have := p.isLt; omega⟩ : Fin 10000) q := by
    have e := index1_4 t
    funext a; apply Fin.ext
    match a with
    | ⟨0, _⟩ =>
      show (cfg1.win 4).index t (0 : Fin 2) * 400 + 1 * p.val = 400 * (t.val - 25) + p.val
      rw [e]; show (if t.val < 25 then 0 else t.val - 25) * 400 + 1 * p.val = _
      rw [if_neg (by omega)]; omega
    | ⟨1, _⟩ =>
      show (cfg1.win 4).index t (1 : Fin 2) * 16 + 1 * q.val = q.val
      rw [e]; show 0 * 16 + 1 * q.val = q.val; omega
  rw [hidx]
  exact lgOf_row V c x w1 h0 t ht p q _ rfl

end Lg

/-- After region 1 the log-softmax array is the reference's. -/
theorem lg_value (c : Dev nD) (x : Vec Ideal S10000x128 .f32) (w1 : Vec Ideal S128x32 .f32)
    (h0 : (V c main_v0 : S10000x32.Idx → EReal) = Cert.ReferenceIdeal.ReadP.val_main_v0 (F := Ideal) x w1) :
    ((dat1 (F := Ideal) V c).arrAt 4 cfg1.N : S10000x16.Idx → EReal)
      = Cert.ReferenceIdeal.ReadP.val_main_v8 (F := Ideal) x (V c main_arg1) w1 (V c main_arg3) := by
  refine (dat1 (F := Ideal) V c).arrAt_eq_of_cover 4 _ (fun t hf => flushedLg_eq V c x w1 h0 t hf) fun i => ?_
  have hi : (i 0).val < 10000 := (i 0).isLt
  have hi1 : (i 1).val < 16 := (i 1).isLt
  refine ⟨pt (25 + (i 0).val / 400) (by omega), (flush1_4 _).mpr (by show 25 ≤ 25 + (i 0).val / 400; omega), ?_⟩
  rw [mem_blkLg]
  have e := index1_4 (pt (25 + (i 0).val / 400) (by omega))
  intro a
  match a with
  | ⟨0, _⟩ =>
    show (cfg1.win 4).index _ (0 : Fin 2) * 400 ≤ (i 0).val ∧ (i 0).val < (cfg1.win 4).index _ (0 : Fin 2) * 400 + 400
    rw [e]
    show (if 25 + (i 0).val / 400 < 25 then 0 else 25 + (i 0).val / 400 - 25) * 400 ≤ (i 0).val
      ∧ (i 0).val < (if 25 + (i 0).val / 400 < 25 then 0 else 25 + (i 0).val / 400 - 25) * 400 + 400
    rw [if_neg (by omega)]; omega
  | ⟨1, _⟩ =>
    show (cfg1.win 4).index _ (1 : Fin 2) * 16 ≤ (i 1).val ∧ (i 1).val < (cfg1.win 4).index _ (1 : Fin 2) * 16 + 16
    rw [e]
    show 0 * 16 ≤ (i 1).val ∧ (i 1).val < 0 * 16 + 16
    omega

end Cert.KernelIdeal.Hand

end
-- ==== Proof.KI.Final.lean ====
/-
  The idealized kernel's run with its results named: at the ideal instance the three result arrays are the reference's
  log-softmax stage, its h1 stage, and adj, as functions of the launch memory's argument arrays.
-/
import proofs.«107694_g18872086298805_cont_8to1_696_27_alg».proof.Proof.Gen.KernelIdeal.Launch
import proofs.«107694_g18872086298805_cont_8to1_696_27_alg».proof.Proof.Gen.KernelIdeal.Skeleton
import proofs.«107694_g18872086298805_cont_8to1_696_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107694_g18872086298805_cont_8to1_696_27_alg».proof.Proof.KI.Run
import proofs.«107694_g18872086298805_cont_8to1_696_27_alg».proof.Proof.KI.ValS1
import proofs.«107694_g18872086298805_cont_8to1_696_27_alg».proof.Proof.KI.ValCopy
import proofs.«107694_g18872086298805_cont_8to1_696_27_alg».proof.Proof.KI.ValH1
import proofs.«107694_g18872086298805_cont_8to1_696_27_alg».proof.Proof.KI.ValLg
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- Region 1 finds S1's array at the reference's x · W1. -/
theorem V1_s1 (c : Dev nD) :
    (V1 m ρ c main_v0 : S10000x32.Idx → EReal)
      = Cert.ReferenceIdeal.ReadP.val_main_v0 (F := Ideal) (m ((c : Thread nD τ).loc main_arg0)) (m ((c : Thread nD τ).loc main_arg2)) := by
  rw [V1_main_v0, arr_s1]
  exact s1Of_ideal _ _

theorem out_h1 (c : Dev nD) :
    ((dat1 (F := Ideal) (V1 m ρ) c).arrAt 3 cfg1.N : S10000x32.Idx → EReal)
      = Cert.ReferenceIdeal.ReadP.val_main_v3 (F := Ideal) (m ((c : Thread nD τ).loc main_arg0)) (m ((c : Thread nD τ).loc main_arg1)) (m ((c : Thread nD τ).loc main_arg2)) := by
  have h := h1_value (V1 m ρ) c _ _ (V1_s1 m ρ c)
  rw [V1_main_arg1] at h
  exact h

theorem out_lg (c : Dev nD) :
    ((dat1 (F := Ideal) (V1 m ρ) c).arrAt 4 cfg1.N : S10000x16.Idx → EReal)
      = Cert.ReferenceIdeal.ReadP.val_main_v8 (F := Ideal) (m ((c : Thread nD τ).loc main_arg0)) (m ((c : Thread nD τ).loc main_arg1)) (m ((c : Thread nD τ).loc main_arg2)) (m ((c : Thread nD τ).loc main_arg3)) := by
  have h := lg_value (V1 m ρ) c _ _ (V1_s1 m ρ c)
  rw [V1_main_arg1, V1_main_arg3] at h
  exact h

theorem out_cp (c : Dev nD) :
    (dat1 (F := Ideal) (V1 m ρ) c).arrAt 5 cfg1.N = m ((c : Thread nD τ).loc main_arg1) :=
  (arr_cp (V1 m ρ) c).trans (V1_main_arg1 m ρ c)

/-- The idealized kernel's run: the results at the reference's stages of the arguments, the arguments as launched. -/
theorem run_value : θ_run defs (onTc (τ := τ) (main (F := Ideal))) ⟨m, fun _ => 0, ρ⟩ (fun r => ∀ c : Dev nD,
      r.2.mem ((c.tc : Thread nD τ).loc main_v1_1) = Cert.ReferenceIdeal.ReadP.val_main_v8 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v1_0) = Cert.ReferenceIdeal.ReadP.val_main_v3 (F := Ideal) (m ((c : Thread nD τ).loc main_arg0)) (m ((c : Thread nD τ).loc main_arg1)) (m ((c : Thread nD τ).loc main_arg2))
      ∧ r.2.mem ((c.tc : Thread nD τ).loc main_v1_2) = m ((c : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_lg m ρ c), (h c).2.1.trans (out_h1 m ρ c), (h c).2.2.1.trans (out_cp m ρ c), (h c).2.2.2⟩)
    (run_main m ρ)

end Cert.KernelIdeal.Hand

end
-- ==== Proof.lean ====
/-
  The certificate of a two-layer graph convolution written as two kernel calls against its jnp reference:
      h1     = relu(adj · (x · W1)),      logits = log_softmax(relu(adj · (h1 · W2))),      results (logits, h1, adj).
  The kernel forms S1 = x · W1 in a first, gridless call, and in a second call walks adj's 25 row blocks twice: in the
  first pass point t writes rows [400t, 400t+400) of h1 and keeps the same rows of h1 · W2 in a scratch buffer; in the
  second pass point t writes the same rows of the log-softmax from its adj block and the whole scratch; each pass copies
  one half of every adj block into the third result. At the ideal instance a change of float format is the identity and a
  matrix product is the plain sum, so both programs compute the same sums, entry by entry; no finiteness is used.

  Frames. Each kernel program's run is proved once, for any float family (Proof/KI/Run.lean, and its word-level twin
  Proof/K/Run.lean): the two regions as segments of @main, every result array named by what its region's write-backs
  fold to, every argument array as launched. The reference's frame is its run with the results dropped.
  Value. Proof/KI/Val*.lean read those folds at the ideal instance as the reference's own stages (x · W1; h1; h1 · W2; the
  log-softmax; adj), and Proof/KI/Final.lean states the idealized kernel's run with the results so named.
  The ideal pass rewrote nothing, so `preserves` has no conjunct.
-/
import proofs.«107694_g18872086298805_cont_8to1_696_27_alg».proof.Defs
import proofs.«107694_g18872086298805_cont_8to1_696_27_alg».proof.Proof.Gen.Kernel
import proofs.«107694_g18872086298805_cont_8to1_696_27_alg».proof.Proof.Gen.KernelIdeal
import proofs.«107694_g18872086298805_cont_8to1_696_27_alg».proof.Proof.Gen.ReferenceIdeal
import proofs.«107694_g18872086298805_cont_8to1_696_27_alg».proof.Proof.Gen.Pre_finite_inputs
import proofs.«107694_g18872086298805_cont_8to1_696_27_alg».proof.Proof.K.Run
import proofs.«107694_g18872086298805_cont_8to1_696_27_alg».proof.Proof.KI.Final
import proofs.«107694_g18872086298805_cont_8to1_696_27_alg».proof.Proof.RefRun
import proofs.«107694_g18872086298805_cont_8to1_696_27_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
/-- The reference's frame: its run, the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Both idealized programs end with the reference's stages of the arguments: the kernel's run names its results so
    (`run_value`), the reference's run states them as the composed term, which is the stage. -/
theorem algebraic : Cert.algebraic_KernelIdeal_ReferenceIdeal := by
  intro m ρ m' ρ' _ hagree
  refine ⟨_, _, _, Cert.KernelIdeal.Hand.run_value m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.ValueP.run (F := Ideal) m' ρ')
  · rw [(hagree c).1, (hagree c).2.1, (hagree c).2.2.1, (hagree c).2.2.2]
    exact Cert.ReferenceIdeal.ReadP.val_main_v8_eq _ _ _ _
  · rw [(hagree c).1, (hagree c).2.1, (hagree c).2.2.1]
    exact Cert.ReferenceIdeal.ReadP.val_main_v3_eq _ _ _
  · exact (hagree c).2.1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
